-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S1x8192x21 : Shape := ⟨3, ![1, 8192, 21]⟩
abbrev S1x8192x32x21x21 : Shape := ⟨5, ![1, 8192, 32, 21, 21]⟩
abbrev S1x8192x32 : Shape := ⟨3, ![1, 8192, 32]⟩
abbrev S_ : Shape := ⟨0, ![]⟩

class Facts : Prop where
  bcast_S_S1x8192x21 : S_.BroadcastsInDim S1x8192x21 (![] : Fin 0 → Fin S1x8192x21.rank)
  reducesTo_S1x8192x21_S_d0_1_2 : S1x8192x21.ReducesTo [0, 1, 2] S_
  h_S_ : 0 < S_.numel
  bcast_S_S1x8192x32x21x21 : S_.BroadcastsInDim S1x8192x32x21x21 (![] : Fin 0 → Fin S1x8192x32x21x21.rank)
  reducesTo_S1x8192x32x21x21_S_d0_1_2_3_4 : S1x8192x32x21x21.ReducesTo [0, 1, 2, 3, 4] S_
  bcast_S_S1x8192 : S_.BroadcastsInDim S1x8192 (![] : Fin 0 → Fin S1x8192.rank)
  reducesTo_S1x8192_S_d0_1 : S1x8192.ReducesTo [0, 1] S_
  bcast_S_S1x8192x32 : S_.BroadcastsInDim S1x8192x32 (![] : Fin 0 → Fin S1x8192x32.rank)
  reducesTo_S1x8192x32_S_d0_1_2 : S1x8192x32.ReducesTo [0, 1, 2] S_

variable [Facts]

def fn_part2 {F : FTy → Type} [FloatOps F] (main_v30 : IVec S_ 1) (main_v32 : IVec S1x8192x32 1) : IVec S_ 1 :=
  let main_c_13 : IVec S_ 1 := constantI S_ 1 1#1
  let main_v33 : IVec S_ 1 := (fun x v => Host.reduce IntOp.andi x v reducesTo_S1x8192x32_S_d0_1_2 h_S_) main_v32 main_c_13
  let main_v34 : IVec S_ 1 := andi main_v30 main_v33
  main_v34

def fn_part1 {F : FTy → Type} [FloatOps F] (main_arg0 : IVec S1x8192 32) (main_arg3 : IVec S1x8192x32 32) (main_v13 : IVec S_ 1) (main_v16 : IVec S1x8192x32 1) : IVec S_ 1 :=
  let main_c_5 : IVec S_ 1 := constantI S_ 1 1#1
  let main_v17 : IVec S_ 1 := (fun x v => Host.reduce IntOp.andi x v reducesTo_S1x8192x32_S_d0_1_2 h_S_) main_v16 main_c_5
  let main_v18 : IVec S_ 1 := andi main_v13 main_v17
  let main_c_6 : IVec S_ 32 := constantI S_ 32 0#32
  let main_v19 : IVec S1x8192 32 := broadcastInDim S1x8192 ![] bcast_S_S1x8192 main_c_6
  let main_v20 : IVec S1x8192 1 := cmpi .sge main_arg0 main_v19
  let main_c_7 : IVec S_ 1 := constantI S_ 1 1#1
  let main_v21 : IVec S_ 1 := (fun x v => Host.reduce IntOp.andi x v reducesTo_S1x8192_S_d0_1 h_S_) main_v20 main_c_7
  let main_v22 : IVec S_ 1 := andi main_v18 main_v21
  let main_c_8 : IVec S_ 32 := constantI S_ 32 21#32
  let main_v23 : IVec S1x8192 32 := broadcastInDim S1x8192 ![] bcast_S_S1x8192 main_c_8
  let main_v24 : IVec S1x8192 1 := cmpi .slt main_arg0 main_v23
  let main_c_9 : IVec S_ 1 := constantI S_ 1 1#1
  let main_v25 : IVec S_ 1 := (fun x v => Host.reduce IntOp.andi x v reducesTo_S1x8192_S_d0_1 h_S_) main_v24 main_c_9
  let main_v26 : IVec S_ 1 := andi main_v22 main_v25
  let main_c_10 : IVec S_ 32 := constantI S_ 32 0#32
  let main_v27 : IVec S1x8192x32 32 := broadcastInDim S1x8192x32 ![] bcast_S_S1x8192x32 main_c_10
  let main_v28 : IVec S1x8192x32 1 := cmpi .sge main_arg3 main_v27
  let main_c_11 : IVec S_ 1 := constantI S_ 1 1#1
  let main_v29 : IVec S_ 1 := (fun x v => Host.reduce IntOp.andi x v reducesTo_S1x8192x32_S_d0_1_2 h_S_) main_v28 main_c_11
  let main_v30 : IVec S_ 1 := andi main_v26 main_v29
  let main_c_12 : IVec S_ 32 := constantI S_ 32 8192#32
  let main_v31 : IVec S1x8192x32 32 := broadcastInDim S1x8192x32 ![] bcast_S_S1x8192x32 main_c_12
  let main_v32 : IVec S1x8192x32 1 := cmpi .slt main_arg3 main_v31
  fn_part2 (F := F) main_v30 main_v32

def fn {F : FTy → Type} [FloatOps F] (main_arg0 : IVec S1x8192 32) (main_arg1 : FVec F S1x8192x21 .f32) (main_arg2 : FVec F S1x8192x32x21x21 .f32) (main_arg3 : IVec S1x8192x32 32) (main_arg4 : FVec F S1x8192 .f32) (main_arg5 : FVec F S1x8192x32 .f32) : IVec S_ 1 :=
  let main_v0 : FVec F S1x8192x21 .f32 := Host.absf main_arg1
  let main_cst : FVec F S_ .f32 := constant S_ .f32 0x7F800000#32
  let main_v1 : FVec F S1x8192x21 .f32 := broadcastInDim S1x8192x21 ![] bcast_S_S1x8192x21 main_cst
  let main_v2 : IVec S1x8192x21 1 := cmpf .olt main_v0 main_v1
  let main_c : IVec S_ 1 := constantI S_ 1 1#1
  let main_v3 : IVec S_ 1 := (fun x v => Host.reduce IntOp.andi x v reducesTo_S1x8192x21_S_d0_1_2 h_S_) main_v2 main_c
  let main_v4 : FVec F S1x8192x32x21x21 .f32 := Host.absf main_arg2
  let main_cst_0 : FVec F S_ .f32 := constant S_ .f32 0x7F800000#32
  let main_v5 : FVec F S1x8192x32x21x21 .f32 := broadcastInDim S1x8192x32x21x21 ![] bcast_S_S1x8192x32x21x21 main_cst_0
  let main_v6 : IVec S1x8192x32x21x21 1 := cmpf .olt main_v4 main_v5
  let main_c_1 : IVec S_ 1 := constantI S_ 1 1#1
  let main_v7 : IVec S_ 1 := (fun x v => Host.reduce IntOp.andi x v reducesTo_S1x8192x32x21x21_S_d0_1_2_3_4 h_S_) main_v6 main_c_1
  let main_v8 : IVec S_ 1 := andi main_v3 main_v7
  let main_v9 : FVec F S1x8192 .f32 := Host.absf main_arg4
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192x32 .f32 := Host.absf main_arg5
  let main_cst_4 : FVec F S_ .f32 := constant S_ .f32 0x7F800000#32
  let main_v15 : FVec F S1x8192x32 .f32 := broadcastInDim S1x8192x32 ![] bcast_S_S1x8192x32 main_cst_4
  let main_v16 : IVec S1x8192x32 1 := cmpf .olt main_v14 main_v15
  fn_part1 (F := F) main_arg0 main_arg3 main_v13 main_v16
-- ==== Kernel.lean ====
abbrev S1x8192 : Shape := ⟨2, ![1, 8192]⟩
abbrev S1x8192x21 : Shape := ⟨3, ![1, 8192, 21]⟩
abbrev S1x8192x32x21x21 : Shape := ⟨5, ![1, 8192, 32, 21, 21]⟩
abbrev S1x8192x32 : Shape := ⟨3, ![1, 8192, 32]⟩
abbrev S8192 : Shape := ⟨1, ![8192]⟩
abbrev S1x8192x1 : Shape := ⟨3, ![1, 8192, 1]⟩
abbrev S8192x21 : Shape := ⟨2, ![8192, 21]⟩
abbrev S8192x32x21x21 : Shape := ⟨4, ![8192, 32, 21, 21]⟩
abbrev S8192x32 : Shape := ⟨2, ![8192, 32]⟩
abbrev S262144 : Shape := ⟨1, ![262144]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S128x32x21x21 : Shape := ⟨4, ![128, 32, 21, 21]⟩
abbrev S128x32 : Shape := ⟨2, ![128, 32]⟩
abbrev S128x21 : Shape := ⟨2, ![128, 21]⟩
abbrev S128x32x21 : Shape := ⟨3, ![128, 32, 21]⟩
abbrev S128x32x1 : Shape := ⟨3, ![128, 32, 1]⟩
abbrev S128x32x1x21 : Shape := ⟨4, ![128, 32, 1, 21]⟩
abbrev S8192x1 : Shape := ⟨2, ![8192, 1]⟩
abbrev S8192x1x1 : Shape := ⟨3, ![8192, 1, 1]⟩
abbrev S1x1x1 : Shape := ⟨3, ![1, 1, 1]⟩

abbrev nBuf : Space → Nat
  | .hbm => 96
  | .vmem => 10
  | .smem => 0
  | _ => 0

abbrev bufTy : (tb : Table) → Fin (tcTables nBuf tb) → BufTy
  | .hbm, ⟨0, _⟩ => ⟨S1x8192, .i32⟩
  | .hbm, ⟨1, _⟩ => ⟨S1x8192x21, .f32⟩
  | .hbm, ⟨2, _⟩ => ⟨S1x8192x32x21x21, .f32⟩
  | .hbm, ⟨3, _⟩ => ⟨S1x8192x32, .i32⟩
  | .hbm, ⟨4, _⟩ => ⟨S1x8192, .f32⟩
  | .hbm, ⟨5, _⟩ => ⟨S1x8192x32, .f32⟩
  | .hbm, ⟨6, _⟩ => ⟨S8192, .i32⟩
  | .hbm, ⟨7, _⟩ => ⟨S1x8192x1, .f32⟩
  | .hbm, ⟨8, _⟩ => ⟨S1x8192x21, .f32⟩
  | .hbm, ⟨9, _⟩ => ⟨S1x8192x21, .f32⟩
  | .hbm, ⟨10, _⟩ => ⟨S8192x21, .f32⟩
  | .hbm, ⟨11, _⟩ => ⟨S8192x32x21x21, .f32⟩
  | .hbm, ⟨12, _⟩ => ⟨S8192x32, .f32⟩
  | .hbm, ⟨13, _⟩ => ⟨S8192x32, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S1, .i32⟩
  | .hbm, ⟨24, _⟩ => ⟨S_, .i32⟩
  | .hbm, ⟨25, _⟩ => ⟨S262144x1, .i32⟩
  | .hbm, ⟨26, _⟩ => ⟨S262144x1, .i1⟩
  | .hbm, ⟨27, _⟩ => ⟨S1x1, .i32⟩
  | .hbm, ⟨28, _⟩ => ⟨S262144x1, .i32⟩
  | .hbm, ⟨29, _⟩ => ⟨S262144x1, .i1⟩
  | .hbm, ⟨30, _⟩ => ⟨S262144x1, .i1⟩
  | .hbm, ⟨31, _⟩ => ⟨S_, .i1⟩
  | .hbm, ⟨32, _⟩ => ⟨S262144, .i1⟩
  | .hbm, ⟨33, _⟩ => ⟨S262144, .i32⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S8192x32, .i32⟩
  | .hbm, ⟨38, _⟩ => ⟨S8192x21, .f32⟩
  | .hbm, ⟨39, _⟩ => ⟨S8192x1, .i32⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S_, .i32⟩
  | .hbm, ⟨44, _⟩ => ⟨S8192x1, .i32⟩
  | .hbm, ⟨45, _⟩ => ⟨S8192x1, .i32⟩
  | .hbm, ⟨46, _⟩ => ⟨S8192x1, .i32⟩
  | .hbm, ⟨47, _⟩ => ⟨S8192x1x1, .i32⟩
  | .hbm, ⟨48, _⟩ => ⟨S1, .i32⟩
  | .hbm, ⟨49, _⟩ => ⟨S_, .i32⟩
  | .hbm, ⟨50, _⟩ => ⟨S8192x1x1, .i32⟩
  | .hbm, ⟨51, _⟩ => ⟨S8192x1x1, .i1⟩
  | .hbm, ⟨52, _⟩ => ⟨S1x1x1, .i32⟩
  | .hbm, ⟨53, _⟩ => ⟨S8192x1x1, .i32⟩
  | .hbm, ⟨54, _⟩ => ⟨S8192x1x1, .i1⟩
  | .hbm, ⟨55, _⟩ => ⟨S8192x1x1, .i1⟩
  | .hbm, ⟨56, _⟩ => ⟨S_, .i1⟩
  | .hbm, ⟨57, _⟩ => ⟨S8192x1, .i1⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192, .f32⟩
  | .hbm, ⟨63, _⟩ => ⟨S8192x1, .i32⟩
  | .hbm, ⟨64, _⟩ => ⟨S_, .i32⟩
  | .hbm, ⟨65, _⟩ => ⟨S8192x1, .i32⟩
  | .hbm, ⟨66, _⟩ => ⟨S8192x1, .i1⟩
  | .hbm, ⟨67, _⟩ => ⟨S_, .i32⟩
  | .hbm, ⟨68, _⟩ => ⟨S8192x1, .i32⟩
  | .hbm, ⟨69, _⟩ => ⟨S8192x1, .i32⟩
  | .hbm, ⟨70, _⟩ => ⟨S8192x1, .i32⟩
  | .hbm, ⟨71, _⟩ => ⟨S8192x1x1, .i32⟩
  | .hbm, ⟨72, _⟩ => ⟨S1, .i32⟩
  | .hbm, ⟨73, _⟩ => ⟨S_, .i32⟩
  | .hbm, ⟨74, _⟩ => ⟨S8192x1x1, .i32⟩
  | .hbm, ⟨75, _⟩ => ⟨S8192x1x1, .i1⟩
  | .hbm, ⟨76, _⟩ => ⟨S1x1x1, .i32⟩
  | .hbm, ⟨77, _⟩ => ⟨S8192x1x1, .i32⟩
  | .hbm, ⟨78, _⟩ => ⟨S8192x1x1, .i1⟩
  | .hbm, ⟨79, _⟩ => ⟨S8192x1x1, .i1⟩
  | .hbm, ⟨80, _⟩ => ⟨S_, .i1⟩
  | .hbm, ⟨81, _⟩ => ⟨S8192x1, .i1⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S1, .f32⟩
  | .hbm, ⟨95, _⟩ => ⟨S1x8192x21, .f32⟩
  | .local _ .vmem, ⟨0, _⟩ => ⟨S128x32x21x21, .f32⟩
  | .local _ .vmem, ⟨1, _⟩ => ⟨S128x32x21x21, .f32⟩
  | .local _ .vmem, ⟨2, _⟩ => ⟨S128x32, .i32⟩
  | .local _ .vmem, ⟨3, _⟩ => ⟨S128x32, .i32⟩
  | .local _ .vmem, ⟨4, _⟩ => ⟨S128x32, .f32⟩
  | .local _ .vmem, ⟨5, _⟩ => ⟨S128x32, .f32⟩
  | .local _ .vmem, ⟨6, _⟩ => ⟨S128x21, .f32⟩
  | .local _ .vmem, ⟨7, _⟩ => ⟨S128x21, .f32⟩
  | .local _ .vmem, ⟨8, _⟩ => ⟨S128x21, .f32⟩
  | .local _ .vmem, ⟨9, _⟩ => ⟨S128x21, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_c_4 : Ref sig .tc := ⟨.hbm, 34, rfl⟩
abbrev main_call0_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_cst : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_cst_0 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x21x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x21 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192_S8192 : S1x8192.ShapeCasts S8192
  bcast_S1x8192_S1x8192x1_0_1 : S1x8192.BroadcastsInDim S1x8192x1 (![0, 1] : Fin 2 → Fin S1x8192x1.rank)
  bcast_S1x8192x1_S1x8192x21_0_1_2 : S1x8192x1.BroadcastsInDim S1x8192x21 (![0, 1, 2] : Fin 3 → Fin S1x8192x21.rank)
  shapeCasts_S1x8192x21_S8192x21 : S1x8192x21.ShapeCasts S8192x21
  shapeCasts_S1x8192x32x21x21_S8192x32x21x21 : S1x8192x32x21x21.ShapeCasts S8192x32x21x21
  shapeCasts_S1x8192x32_S8192x32 : S1x8192x32.ShapeCasts S8192x32
  shapeCasts_S8192x32_S262144 : S8192x32.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  shapeCasts_S262144_S8192x32 : S262144.ShapeCasts S8192x32
  inb_S128x32x21x21_S128x32x21x21_0_0_0_0 : ∀ a, (![0, 0, 0, 0] : Fin 4 → Nat) a + S128x32x21x21.size a ≤ S128x32x21x21.size a
  h_S128x32x21x21 : 0 < S128x32x21x21.numel
  shapeCasts_S128x32x21x21_S128x32x21x21 : S128x32x21x21.ShapeCasts S128x32x21x21
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x21_S128x21_0_0 : ∀ a, (![0, 0] : Fin 2 → Nat) a + S128x21.size a ≤ S128x21.size a
  h_S128x21 : 0 < S128x21.numel
  shapeCasts_S128x21_S128x21 : S128x21.ShapeCasts S128x21
  iota_S128x32x21_d2_w32 : S128x32x21.Iotas .tc 32 [2]
  shapeCasts_S128x32_S128x32x1 : S128x32.ShapeCasts S128x32x1
  broadcasts_S128x32x1_S128x32x21 : S128x32x1.Broadcasts S128x32x21
  natLt_1_32 : 1 < 32
  shapeCasts_S128x32x21_S128x32x1x21 : S128x32x21.ShapeCasts S128x32x1x21
  broadcasts_S128x32x1x21_S128x32x21x21 : S128x32x1x21.Broadcasts S128x32x21x21
  reduces_S128x32x21x21_S128x32x21 : S128x32x21x21.Reduces [3] S128x32x21
  reduces_S128x32x21_S128x21 : S128x32x21.Reduces [1] S128x21
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S8192x21_S1x8192x21_1_2 : S8192x21.BroadcastsInDim S1x8192x21 (![1, 2] : Fin 2 → Fin S1x8192x21.rank)
  gather_S8192_S262144x1_S262144_n_0_n_n_0_1_1_wf : GatherDims.WF S8192 S262144x1 S262144 [] [0] [] [0] [] 1 ![1]
  gather_S8192x21_S8192x1x1_S8192x1_n_1_0_0_1_2_11_wf : GatherDims.WF S8192x21 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x21x21.size a ≤ S8192x32x21x21.size a
  hwx0_0 : ∀ i : grid0.Coords, EltTy.bits .f32 = 32 ∨ (Rect.block (s := S8192x32x21x21) S128x32x21x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S8192x32.size a
  hwx0_1 : ∀ i : grid0.Coords, EltTy.bits .i32 = 32 ∨ (Rect.block (s := S8192x32) S128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S8192x32.size a
  hwx0_2 : ∀ i : grid0.Coords, EltTy.bits .f32 = 32 ∨ (Rect.block (s := S8192x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x21.size a ≤ S8192x21.size a
  hwx0_3 : ∀ i : grid0.Coords, EltTy.bits .f32 = 32 ∨ (Rect.block (s := S8192x21) S128x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x21.size a ≤ S8192x21.size a
  hwx0_4 : ∀ i : grid0.Coords, EltTy.bits .f32 = 32 ∨ (Rect.block (s := S8192x21) S128x21.size (cc0_transform_4 i) (hinb0_4 i)).WholeWords (EltTy.packing .f32)

variable [Facts₀]

def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S8192x21_S8192x1x1_S8192x1_n_1_0_0_1_2_11 : GatherDims S8192x21 S8192x1x1 S8192x1 where
  offsetDims := []
  collapsedSliceDims := [1]
  operandBatchingDims := [0]
  startIndicesBatchingDims := [0]
  startIndexMap := [1]
  indexVectorDim := 2
  sliceSizes := ![1, 1]
  wf := gather_S8192x21_S8192x1x1_S8192x1_n_1_0_0_1_2_11_wf

abbrev win0_0 : Pipeline.Window sig grid0 :=
  Pipeline.Window.ofSpec (Memref.whole main_v5) S128x32x21x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x21.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x21.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192 : Shape := ⟨2, ![1, 8192]⟩
abbrev S1x8192x21 : Shape := ⟨3, ![1, 8192, 21]⟩
abbrev S1x8192x32x21x21 : Shape := ⟨5, ![1, 8192, 32, 21, 21]⟩
abbrev S1x8192x32 : Shape := ⟨3, ![1, 8192, 32]⟩
abbrev S1x8192x1 : Shape := ⟨3, ![1, 8192, 1]⟩
abbrev S1x8192x32x1x1 : Shape := ⟨5, ![1, 8192, 32, 1, 1]⟩
abbrev S1x262144 : Shape := ⟨2, ![1, 262144]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144 : Shape := ⟨1, ![262144]⟩
abbrev S1x8192x32x21x1 : Shape := ⟨5, ![1, 8192, 32, 21, 1]⟩
abbrev S8192x32x21x1x1 : Shape := ⟨5, ![8192, 32, 21, 1, 1]⟩
abbrev S1x1x1x1x1 : Shape := ⟨5, ![1, 1, 1, 1, 1]⟩
abbrev S8192x32x21x1 : Shape := ⟨4, ![8192, 32, 21, 1]⟩
abbrev S1x8192x32x21 : Shape := ⟨4, ![1, 8192, 32, 21]⟩
abbrev S8192x1x1 : Shape := ⟨3, ![8192, 1, 1]⟩
abbrev S1x1x1 : Shape := ⟨3, ![1, 1, 1]⟩
abbrev S8192x1 : Shape := ⟨2, ![8192, 1]⟩

abbrev nBuf : Space → Nat
  | .hbm => 122
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S1x8192x21, .f32⟩
  | .hbm, ⟨2, _⟩ => ⟨S1x8192x32x21x21, .f32⟩
  | .hbm, ⟨3, _⟩ => ⟨S1x8192x32, .i32⟩
  | .hbm, ⟨4, _⟩ => ⟨S1x8192, .f32⟩
  | .hbm, ⟨5, _⟩ => ⟨S1x8192x32, .f32⟩
  | .hbm, ⟨6, _⟩ => ⟨S1x8192x1, .f32⟩
  | .hbm, ⟨7, _⟩ => ⟨S1x8192x21, .f32⟩
  | .hbm, ⟨8, _⟩ => ⟨S1x8192x21, .f32⟩
  | .hbm, ⟨9, _⟩ => ⟨S1x8192x32x1x1, .f32⟩
  | .hbm, ⟨10, _⟩ => ⟨S1x8192x32x21x21, .f32⟩
  | .hbm, ⟨11, _⟩ => ⟨S1x8192x32x21x21, .f32⟩
  | .hbm, ⟨12, _⟩ => ⟨S1x262144, .i32⟩
  | .hbm, ⟨13, _⟩ => ⟨S_, .i32⟩
  | .hbm, ⟨14, _⟩ => ⟨S1x262144, .i32⟩
  | .hbm, ⟨15, _⟩ => ⟨S1x262144, .i1⟩
  | .hbm, ⟨16, _⟩ => ⟨S_, .i32⟩
  | .hbm, ⟨17, _⟩ => ⟨S1x262144, .i32⟩
  | .hbm, ⟨18, _⟩ => ⟨S1x262144, .i32⟩
  | .hbm, ⟨19, _⟩ => ⟨S1x262144, .i32⟩
  | .hbm, ⟨20, _⟩ => ⟨S262144x1, .i32⟩
  | .hbm, ⟨21, _⟩ => ⟨S1, .i32⟩
  | .hbm, ⟨22, _⟩ => ⟨S_, .i32⟩
  | .hbm, ⟨23, _⟩ => ⟨S262144x1, .i32⟩
  | .hbm, ⟨24, _⟩ => ⟨S262144x1, .i1⟩
  | .hbm, ⟨25, _⟩ => ⟨S1x1, .i32⟩
  | .hbm, ⟨26, _⟩ => ⟨S262144x1, .i32⟩
  | .hbm, ⟨27, _⟩ => ⟨S262144x1, .i1⟩
  | .hbm, ⟨28, _⟩ => ⟨S262144x1, .i1⟩
  | .hbm, ⟨29, _⟩ => ⟨S_, .i1⟩
  | .hbm, ⟨30, _⟩ => ⟨S262144, .i1⟩
  | .hbm, ⟨31, _⟩ => ⟨S1x262144, .i32⟩
  | .hbm, ⟨32, _⟩ => ⟨S1x262144, .i1⟩
  | .hbm, ⟨33, _⟩ => ⟨S_, .i32⟩
  | .hbm, ⟨34, _⟩ => ⟨S1x262144, .i32⟩
  | .hbm, ⟨35, _⟩ => ⟨S1x262144, .i32⟩
  | .hbm, ⟨36, _⟩ => ⟨S1x8192x32, .i32⟩
  | .hbm, ⟨37, _⟩ => ⟨S1x8192x32x1x1, .i32⟩
  | .hbm, ⟨38, _⟩ => ⟨S1x8192x32x21x1, .i32⟩
  | .hbm, ⟨39, _⟩ => ⟨S_, .i32⟩
  | .hbm, ⟨40, _⟩ => ⟨S1x8192x32x21x1, .i32⟩
  | .hbm, ⟨41, _⟩ => ⟨S1x8192x32x21x1, .i1⟩
  | .hbm, ⟨42, _⟩ => ⟨S_, .i32⟩
  | .hbm, ⟨43, _⟩ => ⟨S1x8192x32x21x1, .i32⟩
  | .hbm, ⟨44, _⟩ => ⟨S1x8192x32x21x1, .i32⟩
  | .hbm, ⟨45, _⟩ => ⟨S1x8192x32x21x1, .i32⟩
  | .hbm, ⟨46, _⟩ => ⟨S8192x32x21x1x1, .i32⟩
  | .hbm, ⟨47, _⟩ => ⟨S1, .i32⟩
  | .hbm, ⟨48, _⟩ => ⟨S_, .i32⟩
  | .hbm, ⟨49, _⟩ => ⟨S8192x32x21x1x1, .i32⟩
  | .hbm, ⟨50, _⟩ => ⟨S8192x32x21x1x1, .i1⟩
  | .hbm, ⟨51, _⟩ => ⟨S1x1x1x1x1, .i32⟩
  | .hbm, ⟨52, _⟩ => ⟨S8192x32x21x1x1, .i32⟩
  | .hbm, ⟨53, _⟩ => ⟨S8192x32x21x1x1, .i1⟩
  | .hbm, ⟨54, _⟩ => ⟨S8192x32x21x1x1, .i1⟩
  | .hbm, ⟨55, _⟩ => ⟨S_, .i1⟩
  | .hbm, ⟨56, _⟩ => ⟨S8192x32x21x1, .i1⟩
  | .hbm, ⟨57, _⟩ => ⟨S1x8192x32x21x1, .f32⟩
  | .hbm, ⟨58, _⟩ => ⟨S1x8192x32x21x1, .i1⟩
  | .hbm, ⟨59, _⟩ => ⟨S_, .f32⟩
  | .hbm, ⟨60, _⟩ => ⟨S1x8192x32x21x1, .f32⟩
  | .hbm, ⟨61, _⟩ => ⟨S1x8192x32x21x1, .f32⟩
  | .hbm, ⟨62, _⟩ => ⟨S1x8192x32x21, .f32⟩
  | .hbm, ⟨63, _⟩ => ⟨S_, .f32⟩
  | .hbm, ⟨64, _⟩ => ⟨S1x8192x21, .f32⟩
  | .hbm, ⟨65, _⟩ => ⟨S1x8192x21, .f32⟩
  | .hbm, ⟨66, _⟩ => ⟨S1x8192x1, .i32⟩
  | .hbm, ⟨67, _⟩ => ⟨S_, .i32⟩
  | .hbm, ⟨68, _⟩ => ⟨S1x8192x1, .i32⟩
  | .hbm, ⟨69, _⟩ => ⟨S1x8192x1, .i1⟩
  | .hbm, ⟨70, _⟩ => ⟨S_, .i32⟩
  | .hbm, ⟨71, _⟩ => ⟨S1x8192x1, .i32⟩
  | .hbm, ⟨72, _⟩ => ⟨S1x8192x1, .i32⟩
  | .hbm, ⟨73, _⟩ => ⟨S1x8192x1, .i32⟩
  | .hbm, ⟨74, _⟩ => ⟨S8192x1x1, .i32⟩
  | .hbm, ⟨75, _⟩ => ⟨S1, .i32⟩
  | .hbm, ⟨76, _⟩ => ⟨S_, .i32⟩
  | .hbm, ⟨77, _⟩ => ⟨S8192x1x1, .i32⟩
  | .hbm, ⟨78, _⟩ => ⟨S8192x1x1, .i1⟩
  | .hbm, ⟨79, _⟩ => ⟨S1x1x1, .i32⟩
  | .hbm, ⟨80, _⟩ => ⟨S8192x1x1, .i32⟩
  | .hbm, ⟨81, _⟩ => ⟨S8192x1x1, .i1⟩
  | .hbm, ⟨82, _⟩ => ⟨S8192x1x1, .i1⟩
  | .hbm, ⟨83, _⟩ => ⟨S_, .i1⟩
  | .hbm, ⟨84, _⟩ => ⟨S8192x1, .i1⟩
  | .hbm, ⟨85, _⟩ => ⟨S1x8192x1, .f32⟩
  | .hbm, ⟨86, _⟩ => ⟨S1x8192x1, .i1⟩
  | .hbm, ⟨87, _⟩ => ⟨S_, .f32⟩
  | .hbm, ⟨88, _⟩ => ⟨S1x8192x1, .f32⟩
  | .hbm, ⟨89, _⟩ => ⟨S1x8192x1, .f32⟩
  | .hbm, ⟨90, _⟩ => ⟨S1x8192, .f32⟩
  | .hbm, ⟨91, _⟩ => ⟨S1x8192x1, .i32⟩
  | .hbm, ⟨92, _⟩ => ⟨S_, .i32⟩
  | .hbm, ⟨93, _⟩ => ⟨S1x8192x1, .i32⟩
  | .hbm, ⟨94, _⟩ => ⟨S1x8192x1, .i1⟩
  | .hbm, ⟨95, _⟩ => ⟨S_, .i32⟩
  | .hbm, ⟨96, _⟩ => ⟨S1x8192x1, .i32⟩
  | .hbm, ⟨97, _⟩ => ⟨S1x8192x1, .i32⟩
  | .hbm, ⟨98, _⟩ => ⟨S1x8192x1, .i32⟩
  | .hbm, ⟨99, _⟩ => ⟨S8192x1x1, .i32⟩
  | .hbm, ⟨100, _⟩ => ⟨S1, .i32⟩
  | .hbm, ⟨101, _⟩ => ⟨S_, .i32⟩
  | .hbm, ⟨102, _⟩ => ⟨S8192x1x1, .i32⟩
  | .hbm, ⟨103, _⟩ => ⟨S8192x1x1, .i1⟩
  | .hbm, ⟨104, _⟩ => ⟨S1x1x1, .i32⟩
  | .hbm, ⟨105, _⟩ => ⟨S8192x1x1, .i32⟩
  | .hbm, ⟨106, _⟩ => ⟨S8192x1x1, .i1⟩
  | .hbm, ⟨107, _⟩ => ⟨S8192x1x1, .i1⟩
  | .hbm, ⟨108, _⟩ => ⟨S_, .i1⟩
  | .hbm, ⟨109, _⟩ => ⟨S8192x1, .i1⟩
  | .hbm, ⟨110, _⟩ => ⟨S1x8192x1, .f32⟩
  | .hbm, ⟨111, _⟩ => ⟨S1x8192x1, .i1⟩
  | .hbm, ⟨112, _⟩ => ⟨S_, .f32⟩
  | .hbm, ⟨113, _⟩ => ⟨S1x8192x1, .f32⟩
  | .hbm, ⟨114, _⟩ => ⟨S1x8192x1, .f32⟩
  | .hbm, ⟨115, _⟩ => ⟨S1x8192, .f32⟩
  | .hbm, ⟨116, _⟩ => ⟨S_, .f32⟩
  | .hbm, ⟨117, _⟩ => ⟨S1x8192, .f32⟩
  | .hbm, ⟨118, _⟩ => ⟨S1x8192, .f32⟩
  | .hbm, ⟨119, _⟩ => ⟨S1x8192, .f32⟩
  | .hbm, ⟨120, _⟩ => ⟨S_, .f32⟩
  | .hbm, ⟨121, _⟩ => ⟨S1, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_4 : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v11 : Ref sig .tc := ⟨.hbm, 61, rfl⟩
abbrev main_v12 : Ref sig .tc := ⟨.hbm, 62, rfl⟩
abbrev main_cst : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v19 : Ref sig .tc := ⟨.hbm, 114, rfl⟩
abbrev main_v20 : Ref sig .tc := ⟨.hbm, 115, rfl⟩
abbrev main_cst_0 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_cst_1 : Ref sig .tc := ⟨.hbm, 120, rfl⟩
abbrev main_v24 : Ref sig .tc := ⟨.hbm, 121, rfl⟩

abbrev nD : Nat := 1
abbrev τ : Topo := Topo.v7x

variable {F : FTy → Type} [FloatOps F]

class Facts₀ : Prop where
  bcast_S1x8192_S1x8192x1_0_1 : S1x8192.BroadcastsInDim S1x8192x1 (![0, 1] : Fin 2 → Fin S1x8192x1.rank)
  bcast_S1x8192x1_S1x8192x21_0_1_2 : S1x8192x1.BroadcastsInDim S1x8192x21 (![0, 1, 2] : Fin 3 → Fin S1x8192x21.rank)
  bcast_S1x8192x32_S1x8192x32x1x1_0_1_2 : S1x8192x32.BroadcastsInDim S1x8192x32x1x1 (![0, 1, 2] : Fin 3 → Fin S1x8192x32x1x1.rank)
  bcast_S1x8192x32x1x1_S1x8192x32x21x21_0_1_2_3_4 : S1x8192x32x1x1.BroadcastsInDim S1x8192x32x21x21 (![0, 1, 2, 3, 4] : Fin 5 → Fin S1x8192x32x21x21.rank)
  shapeCasts_S1x8192x32_S1x262144 : S1x8192x32.ShapeCasts S1x262144
  bcast_S_S1x262144 : S_.BroadcastsInDim S1x262144 (![] : Fin 0 → Fin S1x262144.rank)
  shapeCasts_S1x262144_S262144x1 : S1x262144.ShapeCasts S262144x1
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S1x262144_1 : S262144.BroadcastsInDim S1x262144 (![1] : Fin 1 → Fin S1x262144.rank)
  shapeCasts_S1x262144_S1x8192x32 : S1x262144.ShapeCasts S1x8192x32
  bcast_S1x8192x32x1x1_S1x8192x32x21x1_0_1_2_3_4 : S1x8192x32x1x1.BroadcastsInDim S1x8192x32x21x1 (![0, 1, 2, 3, 4] : Fin 5 → Fin S1x8192x32x21x1.rank)
  bcast_S_S1x8192x32x21x1 : S_.BroadcastsInDim S1x8192x32x21x1 (![] : Fin 0 → Fin S1x8192x32x21x1.rank)
  shapeCasts_S1x8192x32x21x1_S8192x32x21x1x1 : S1x8192x32x21x1.ShapeCasts S8192x32x21x1x1
  bcast_S_S8192x32x21x1x1 : S_.BroadcastsInDim S8192x32x21x1x1 (![] : Fin 0 → Fin S8192x32x21x1x1.rank)
  bcast_S1_S1x1x1x1x1_4 : S1.BroadcastsInDim S1x1x1x1x1 (![4] : Fin 1 → Fin S1x1x1x1x1.rank)
  bcast_S1x1x1x1x1_S8192x32x21x1x1_0_1_2_3_4 : S1x1x1x1x1.BroadcastsInDim S8192x32x21x1x1 (![0, 1, 2, 3, 4] : Fin 5 → Fin S8192x32x21x1x1.rank)
  reducesTo_S8192x32x21x1x1_S8192x32x21x1_d4 : S8192x32x21x1x1.ReducesTo [4] S8192x32x21x1
  bcast_S8192x32x21x1_S1x8192x32x21x1_1_2_3_4 : S8192x32x21x1.BroadcastsInDim S1x8192x32x21x1 (![1, 2, 3, 4] : Fin 4 → Fin S1x8192x32x21x1.rank)
  shapeCasts_S1x8192x32x21x1_S1x8192x32x21 : S1x8192x32x21x1.ShapeCasts S1x8192x32x21
  reducesTo_S1x8192x32x21_S1x8192x21_d2 : S1x8192x32x21.ReducesTo [2] S1x8192x21
  bcast_S_S1x8192x1 : S_.BroadcastsInDim S1x8192x1 (![] : Fin 0 → Fin S1x8192x1.rank)
  shapeCasts_S1x8192x1_S8192x1x1 : S1x8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  bcast_S8192x1_S1x8192x1_1_2 : S8192x1.BroadcastsInDim S1x8192x1 (![1, 2] : Fin 2 → Fin S1x8192x1.rank)
  shapeCasts_S1x8192x1_S1x8192 : S1x8192x1.ShapeCasts S1x8192
  bcast_S_S1x8192 : S_.BroadcastsInDim S1x8192 (![] : Fin 0 → Fin S1x8192.rank)
  reducesTo_S1x8192_S1_d1 : S1x8192.ReducesTo [1] S1
  gather_S1x8192_S262144x1_S1x262144_0_1_n_n_1_1_11_wf : GatherDims.WF S1x8192 S262144x1 S1x262144 [0] [1] [] [1] [] 1 ![1, 1]
  gather_S1x8192x32x21x21_S8192x32x21x1x1_S1x8192x32x21x1_0_4_123_012_4_4_11111_wf : GatherDims.WF S1x8192x32x21x21 S8192x32x21x1x1 S1x8192x32x21x1 [0] [4] [1, 2, 3] [4] [0, 1, 2] 4 ![1, 1, 1, 1, 1]
  gather_S1x8192x21_S8192x1x1_S1x8192x1_0_2_1_0_2_2_111_wf : GatherDims.WF S1x8192x21 S8192x1x1 S1x8192x1 [0] [2] [1] [2] [0] 2 ![1, 1, 1]

variable [Facts₀]

def gather_S1x8192_S262144x1_S1x262144_0_1_n_n_1_1_11 : GatherDims S1x8192 S262144x1 S1x262144 where
  offsetDims := [0]
  collapsedSliceDims := [1]
  operandBatchingDims := []
  startIndicesBatchingDims := []
  startIndexMap := [1]
  indexVectorDim := 1
  sliceSizes := ![1, 1]
  wf := gather_S1x8192_S262144x1_S1x262144_0_1_n_n_1_1_11_wf
def gather_S1x8192x32x21x21_S8192x32x21x1x1_S1x8192x32x21x1_0_4_123_012_4_4_11111 : GatherDims S1x8192x32x21x21 S8192x32x21x1x1 S1x8192x32x21x1 where
  offsetDims := [0]
  collapsedSliceDims := [4]
  operandBatchingDims := [1, 2, 3]
  startIndicesBatchingDims := [0, 1, 2]
  startIndexMap := [4]
  indexVectorDim := 4
  sliceSizes := ![1, 1, 1, 1, 1]
  wf := gather_S1x8192x32x21x21_S8192x32x21x1x1_S1x8192x32x21x1_0_4_123_012_4_4_11111_wf
def gather_S1x8192x21_S8192x1x1_S1x8192x1_0_2_1_0_2_2_111 : GatherDims S1x8192x21 S8192x1x1 S1x8192x1 where
  offsetDims := [0]
  collapsedSliceDims := [2]
  operandBatchingDims := [1]
  startIndicesBatchingDims := [0]
  startIndexMap := [2]
  indexVectorDim := 2
  sliceSizes := ![1, 1, 1]
  wf := gather_S1x8192x21_S8192x1x1_S1x8192x1_0_2_1_0_2_2_111_wf

class Facts : Prop extends Facts₀ where

variable [Facts]
-- ==== Proof.RefRunHand.lean ====
/-
  The reference program's run, read back one operation at a time: every weakly fair execution of its 116 host
  operations terminates, each result buffer holding its stage — the composed function of the argument arrays that the
  operation-by-operation reading names `val_main_v24` and `val_main_v14` — and the argument arrays unchanged.
-/
import proofs.«426380_j2448131358775_1_alg».proof.Proof.RefRunDefs
import proofs.«426380_j2448131358775_1_alg».proof.Proof.RefReadP
import Idealize.ShloMosaic.Lib.StableHlo.Run

noncomputable section

namespace Cert.ReferenceIdeal.Potts

open Cert.ReferenceIdeal Cert.ReferenceIdeal.Gen Cert.ReferenceIdeal.ValueP Cert.ReferenceIdeal.ReadP
  Idealize.ShloMosaic Idealize.ShloMosaic.TcCoe Idealize.SL.Sem Idealize.ShloMosaic.StableHlo

section Table

variable {tp : Topo} {sg : RefSig} {Vl : EltTy → Type}

/-- A buffer paired with contents of its type. -/
abbrev Entry (sg : RefSig) (Vl : EltTy → Type) := Σ r : Ref sg .tc, r.ty.Contents Vl

/-- Every listed buffer is among `ks` and holds, in `W`, the contents listed with it. -/
def Holds (W : Valuation tp sg Vl) (ks : List (Ref sg .tc)) (T : List (Entry sg Vl)) : Prop :=
  ∀ p ∈ T, p.1 ∈ ks ∧ W (Proc.devRef .tc p.1) = p.2

theorem Holds.nil (W : Valuation tp sg Vl) : Holds W [] [] := fun _ h => nomatch h

theorem Holds.read {W : Valuation tp sg Vl} {ks T} (h : Holds W ks T) {r : Ref sg .tc} {v : r.ty.Contents Vl}
    (m : (⟨r, v⟩ : Entry sg Vl) ∈ T) : W (Proc.devRef .tc r) = v := (h _ m).2

/-- One more buffer, at contents `W` already has there. -/
theorem Holds.cons {W : Valuation tp sg Vl} {ks T} (h : Holds W ks T) {r : Ref sg .tc} {v : r.ty.Contents Vl}
    (hr : W (Proc.devRef .tc r) = v) : Holds W (r :: ks) (⟨r, v⟩ :: T) := by
  intro p hp
  rcases List.mem_cons.mp hp with rfl | hp
  · exact ⟨List.mem_cons_self, hr⟩
  · exact ⟨List.mem_cons_of_mem _ (h p hp).1, (h p hp).2⟩

/-- After a write to a buffer `y` not yet listed, which changes no other buffer, the list extended by `y` holds. -/
theorem Holds.write {W W' : Valuation tp sg Vl} {ks T} (h : Holds W ks T) {y : Ref sg .tc} {vy : y.ty.Contents Vl}
    (hy : W' (Proc.devRef .tc y) = vy)
    (hne : ∀ r : Ref sg .tc, r ≠ y → W' (Proc.devRef .tc r) = W (Proc.devRef .tc r))
    (fresh : y ∉ ks) : Holds W' (y :: ks) (⟨y, vy⟩ :: T) := by
  intro p hp
  rcases List.mem_cons.mp hp with rfl | hp
  · exact ⟨List.mem_cons_self, hy⟩
  · have hk := (h p hp).1
    have : p.1 ≠ y := fun e => fresh (e ▸ hk)
    exact ⟨List.mem_cons_of_mem _ hk, (hne _ this).trans (h p hp).2⟩

/-- From any contents holding the listed stages, the operations end in contents satisfying `P`. -/
def Leads (ks : List (Ref sg .tc)) (done : List (Entry sg Vl)) (ops : List (HloOp tp sg Vl))
    (P : Valuation tp sg Vl → Prop) : Prop :=
  ∀ W, Holds W ks done → P (after ops W)

theorem Leads.stop {ks} {done : List (Entry sg Vl)} {P : Valuation tp sg Vl → Prop}
    (h : ∀ W, Holds W ks done → P W) : Leads ks done [] P := h

theorem Leads.nullary {ks} {done : List (Entry sg Vl)} {rest} {P : Valuation tp sg Vl → Prop}
    {y : Ref sg .tc} {v : y.ty.Contents Vl} {hy} (vy : y.ty.Contents Vl)
    (k : Leads (y :: ks) (⟨y, vy⟩ :: done) rest P) (fresh : y ∉ ks) (e : vy = v) :
    Leads ks done (StableHlo.nullary (τ := tp) y v hy :: rest) P := fun W hW =>
  k _ (hW.write ((nullary_result y v hy W).trans e.symm) (fun _ h => nullary_result_ne y v hy W h) fresh)

theorem Leads.unary {ks} {done : List (Entry sg Vl)} {rest} {P : Valuation tp sg Vl → Prop}
    {x y : Ref sg .tc} {f : x.ty.Contents Vl → y.ty.Contents Vl} {hx hy} {vx : x.ty.Contents Vl} (vy : y.ty.Contents Vl)
    (k : Leads (y :: ks) (⟨y, vy⟩ :: done) rest P) (mx : (⟨x, vx⟩ : Entry sg Vl) ∈ done)
    (fresh : y ∉ ks) (e : vy = f vx) :
    Leads ks done (StableHlo.unary (τ := tp) x y f hx hy :: rest) P := fun W hW =>
  k _ (hW.write ((unary_result x y f hx hy W).trans ((congrArg f (hW.read mx)).trans e.symm))
    (fun _ h => unary_result_ne x y f hx hy W h) fresh)

theorem Leads.binary {ks} {done : List (Entry sg Vl)} {rest} {P : Valuation tp sg Vl → Prop}
    {a b y : Ref sg .tc} {f : a.ty.Contents Vl → b.ty.Contents Vl → y.ty.Contents Vl} {ha hb hy}
    {va : a.ty.Contents Vl} {vb : b.ty.Contents Vl} (vy : y.ty.Contents Vl)
    (k : Leads (y :: ks) (⟨y, vy⟩ :: done) rest P) (ma : (⟨a, va⟩ : Entry sg Vl) ∈ done) (mb : (⟨b, vb⟩ : Entry sg Vl) ∈ done)
    (fresh : y ∉ ks) (e : vy = f va vb) :
    Leads ks done (StableHlo.binary (τ := tp) a b y f ha hb hy :: rest) P := fun W hW =>
  k _ (hW.write ((binary_result a b y f ha hb hy W).trans (by rw [hW.read ma, hW.read mb, e]))
    (fun _ h => binary_result_ne a b y f ha hb hy W h) fresh)

theorem Leads.ternary {ks} {done : List (Entry sg Vl)} {rest} {P : Valuation tp sg Vl → Prop}
    {c a b y : Ref sg .tc} {f : c.ty.Contents Vl → a.ty.Contents Vl → b.ty.Contents Vl → y.ty.Contents Vl} {hc ha hb hy}
    {vc : c.ty.Contents Vl} {va : a.ty.Contents Vl} {vb : b.ty.Contents Vl} (vy : y.ty.Contents Vl)
    (k : Leads (y :: ks) (⟨y, vy⟩ :: done) rest P) (mc : (⟨c, vc⟩ : Entry sg Vl) ∈ done)
    (ma : (⟨a, va⟩ : Entry sg Vl) ∈ done) (mb : (⟨b, vb⟩ : Entry sg Vl) ∈ done)
    (fresh : y ∉ ks) (e : vy = f vc va vb) :
    Leads ks done (StableHlo.ternary (τ := tp) c a b y f hc ha hb hy :: rest) P := fun W hW =>
  k _ (hW.write ((ternary_result c a b y f hc ha hb hy W).trans (by rw [hW.read mc, hW.read ma, hW.read mb, e]))
    (fun _ h => ternary_result_ne a b c y f hc ha hb hy W h) fresh)

theorem Leads.reshape {ks} {done : List (Entry sg Vl)} {rest} {P : Valuation tp sg Vl → Prop}
    {x y : Ref sg .tc} {he : x.ty.elt = y.ty.elt} {hn : x.ty.shape.ShapeCasts y.ty.shape} {hx hy}
    {vx : x.ty.Contents Vl} (vy : y.ty.Contents Vl)
    (k : Leads (y :: ks) (⟨y, vy⟩ :: done) rest P) (mx : (⟨x, vx⟩ : Entry sg Vl) ∈ done)
    (fresh : y ∉ ks) (e : vy = fun i => he ▸ shapeCast y.ty.shape vx hn i) :
    Leads ks done (StableHlo.reshape (τ := tp) (Val := Vl) x y he hn hx hy :: rest) P := fun W hW =>
  k _ (hW.write ((reshape_result x y he hn hx hy W).trans (by rw [hW.read mx, e]))
    (fun _ h => reshape_result_ne x y he hn hx hy W h) fresh)

/-! The operations of an inlined callee are built over typed references, the function wrapped in transports along
    each reference's type equation. When that equation is `rfl` the transports are the identity, so the same steps
    hold with the function as printed. -/

theorem Leads.tnullary {ks} {done : List (Entry sg Vl)} {rest} {P : Valuation tp sg Vl → Prop}
    {y : Ref sg .tc} {dy sy} {v : y.ty.Contents Vl} (vy : y.ty.Contents Vl)
    (k : Leads (y :: ks) (⟨y, vy⟩ :: done) rest P) (fresh : y ∉ ks) (e : vy = v) :
    Leads ks done (TRef.nullary (τ := tp) (⟨y, rfl, dy, sy⟩ : TRef sg y.ty) v :: rest) P :=
  Leads.nullary vy k fresh e

theorem Leads.tunary {ks} {done : List (Entry sg Vl)} {rest} {P : Valuation tp sg Vl → Prop}
    {x y : Ref sg .tc} {dx sx dy sy} {f : x.ty.Contents Vl → y.ty.Contents Vl} {vx : x.ty.Contents Vl}
    (vy : y.ty.Contents Vl) (k : Leads (y :: ks) (⟨y, vy⟩ :: done) rest P) (mx : (⟨x, vx⟩ : Entry sg Vl) ∈ done)
    (fresh : y ∉ ks) (e : vy = f vx) :
    Leads ks done (TRef.unary (τ := tp) (⟨x, rfl, dx, sx⟩ : TRef sg x.ty) (⟨y, rfl, dy, sy⟩ : TRef sg y.ty) f :: rest) P :=
  Leads.unary vy k mx fresh e

theorem Leads.tbinary {ks} {done : List (Entry sg Vl)} {rest} {P : Valuation tp sg Vl → Prop}
    {a b y : Ref sg .tc} {da sa db sb dy sy} {f : a.ty.Contents Vl → b.ty.Contents Vl → y.ty.Contents Vl}
    {va : a.ty.Contents Vl} {vb : b.ty.Contents Vl} (vy : y.ty.Contents Vl)
    (k : Leads (y :: ks) (⟨y, vy⟩ :: done) rest P) (ma : (⟨a, va⟩ : Entry sg Vl) ∈ done) (mb : (⟨b, vb⟩ : Entry sg Vl) ∈ done)
    (fresh : y ∉ ks) (e : vy = f va vb) :
    Leads ks done (TRef.binary (τ := tp) (⟨a, rfl, da, sa⟩ : TRef sg a.ty) (⟨b, rfl, db, sb⟩ : TRef sg b.ty)
      (⟨y, rfl, dy, sy⟩ : TRef sg y.ty) f :: rest) P :=
  Leads.binary vy k ma mb fresh e

theorem Leads.tternary {ks} {done : List (Entry sg Vl)} {rest} {P : Valuation tp sg Vl → Prop}
    {c a b y : Ref sg .tc} {dc sc da sa db sb dy sy}
    {f : c.ty.Contents Vl → a.ty.Contents Vl → b.ty.Contents Vl → y.ty.Contents Vl}
    {vc : c.ty.Contents Vl} {va : a.ty.Contents Vl} {vb : b.ty.Contents Vl} (vy : y.ty.Contents Vl)
    (k : Leads (y :: ks) (⟨y, vy⟩ :: done) rest P) (mc : (⟨c, vc⟩ : Entry sg Vl) ∈ done)
    (ma : (⟨a, va⟩ : Entry sg Vl) ∈ done) (mb : (⟨b, vb⟩ : Entry sg Vl) ∈ done)
    (fresh : y ∉ ks) (e : vy = f vc va vb) :
    Leads ks done (TRef.ternary (τ := tp) (⟨c, rfl, dc, sc⟩ : TRef sg c.ty) (⟨a, rfl, da, sa⟩ : TRef sg a.ty)
      (⟨b, rfl, db, sb⟩ : TRef sg b.ty) (⟨y, rfl, dy, sy⟩ : TRef sg y.ty) f :: rest) P :=
  Leads.ternary vy k mc ma mb fresh e

theorem Leads.treshape {ks} {done : List (Entry sg Vl)} {rest} {P : Valuation tp sg Vl → Prop}
    {x y : Ref sg .tc} {dx sx dy sy} {he : x.ty.elt = y.ty.elt} {hn : x.ty.shape.ShapeCasts y.ty.shape}
    {vx : x.ty.Contents Vl} (vy : y.ty.Contents Vl)
    (k : Leads (y :: ks) (⟨y, vy⟩ :: done) rest P) (mx : (⟨x, vx⟩ : Entry sg Vl) ∈ done)
    (fresh : y ∉ ks) (e : vy = fun i => he ▸ shapeCast y.ty.shape vx hn i) :
    Leads ks done (TRef.reshape (τ := tp) (Val := Vl) (⟨x, rfl, dx, sx⟩ : TRef sg x.ty) (⟨y, rfl, dy, sy⟩ : TRef sg y.ty) he hn :: rest) P :=
  Leads.reshape vy k mx fresh e

end Table

/-- Finds a listed entry by walking the list. -/
macro "lookup" : tactic => `(tactic| repeat (first | exact List.Mem.head _ | apply List.Mem.tail))

/-- One operation of each kind: its result buffer joins the list at the stage given, which is the operation applied to
    the listed stages of its operands. -/
macro "hnull " v:term : tactic => `(tactic| refine Leads.nullary $v ?_ (by decide) (by rfl))
macro "hun " v:term : tactic => `(tactic| refine Leads.unary $v ?_ (by lookup) (by decide) (by rfl))
macro "hbin " v:term : tactic => `(tactic| refine Leads.binary $v ?_ (by lookup) (by lookup) (by decide) (by rfl))
macro "hter " v:term : tactic => `(tactic| refine Leads.ternary $v ?_ (by lookup) (by lookup) (by lookup) (by decide) (by rfl))
macro "hresh " v:term : tactic => `(tactic| refine Leads.reshape $v ?_ (by lookup) (by decide) (by rfl))
macro "cnull " v:term : tactic => `(tactic| refine Leads.tnullary $v ?_ (by decide) (by rfl))
macro "cun " v:term : tactic => `(tactic| refine Leads.tunary $v ?_ (by lookup) (by decide) (by rfl))
macro "cbin " v:term : tactic => `(tactic| refine Leads.tbinary $v ?_ (by lookup) (by lookup) (by decide) (by rfl))
macro "cter " v:term : tactic => `(tactic| refine Leads.tternary $v ?_ (by lookup) (by lookup) (by lookup) (by decide) (by rfl))
macro "cresh " v:term : tactic => `(tactic| refine Leads.treshape $v ?_ (by lookup) (by decide) (by rfl))

variable {F : FTy → Type} [FloatOps F]

/-- What the run must end with: the two results at their stages of the argument arrays `x0 … x5`, and the
    argument buffers still at those arrays. -/
def Final (x0 : (⟨S1x8192, .i32⟩ : BufTy).Contents (Elt F)) (x1 : (⟨S1x8192x21, .f32⟩ : BufTy).Contents (Elt F))
    (x2 : (⟨S1x8192x32x21x21, .f32⟩ : BufTy).Contents (Elt F)) (x3 : (⟨S1x8192x32, .i32⟩ : BufTy).Contents (Elt F))
    (x4 : (⟨S1x8192, .f32⟩ : BufTy).Contents (Elt F)) (x5 : (⟨S1x8192x32, .f32⟩ : BufTy).Contents (Elt F))
    (V : Valuation τ sig (Elt F)) : Prop :=
  V (Proc.devRef .tc main_v24) = val_main_v24 x0 x1 x2 x3 x4 x5
  ∧ V (Proc.devRef .tc main_v14) = val_main_v14 x0 x1 x2 x3 x4 x5
  ∧ V (Proc.devRef .tc main_arg0) = x0 ∧ V (Proc.devRef .tc main_arg1) = x1 ∧ V (Proc.devRef .tc main_arg2) = x2
  ∧ V (Proc.devRef .tc main_arg3) = x3 ∧ V (Proc.devRef .tc main_arg4) = x4 ∧ V (Proc.devRef .tc main_arg5) = x5

set_option maxHeartbeats 8000000 in
/-- The 116 operations, one at a time. Each writes a buffer no earlier one wrote, so every stage already listed
    stays; and each stage is by definition the operation applied to its operands' stages, so the new entry is the
    operation's value at the listed operands. At the end the two results and the six arguments are read off. -/
theorem ops_lead (x0 : (⟨S1x8192, .i32⟩ : BufTy).Contents (Elt F)) (x1 : (⟨S1x8192x21, .f32⟩ : BufTy).Contents (Elt F))
    (x2 : (⟨S1x8192x32x21x21, .f32⟩ : BufTy).Contents (Elt F)) (x3 : (⟨S1x8192x32, .i32⟩ : BufTy).Contents (Elt F))
    (x4 : (⟨S1x8192, .f32⟩ : BufTy).Contents (Elt F)) (x5 : (⟨S1x8192x32, .f32⟩ : BufTy).Contents (Elt F)) :
    Leads [main_arg5, main_arg4, main_arg3, main_arg2, main_arg1, main_arg0]
      [⟨main_arg5, x5⟩, ⟨main_arg4, x4⟩, ⟨main_arg3, x3⟩, ⟨main_arg2, x2⟩, ⟨main_arg1, x1⟩, ⟨main_arg0, x0⟩]
      (ops (F := F)) (Final x0 x1 x2 x3 x4 x5) := by
  -- the site table and the pair table, each scaled entrywise by its weights; the neighbour indices flattened
  hun (val_main_v0 x4)
  hun (val_main_v1 x4)
  hbin (val_main_v2 x1 x4)
  hun (val_main_v3 x5)
  hun (val_main_v4 x5)
  hbin (val_main_v5 x2 x5)
  hresh (val_main_v6 x3)
  -- first gather: each neighbour's state, a negative index wrapped once, a read outside the range filled
  cnull (val_main_call0_c (F := F))
  cun (val_main_call0_v0 (F := F))
  cbin (val_main_call0_v1 x3)
  cnull (val_main_call0_c_0 (F := F))
  cun (val_main_call0_v2 (F := F))
  cbin (val_main_call0_v3 x3)
  cter (val_main_call0_v4 x3)
  cresh (val_main_call0_v5 x3)
  cnull (val_main_call0_c_1 (F := F))
  cnull (val_main_call0_c_2 (F := F))
  cun (val_main_call0_v6 (F := F))
  cbin (val_main_call0_v7 x3)
  cun (val_main_call0_v8 (F := F))
  cun (val_main_call0_v9 (F := F))
  cbin (val_main_call0_v10 x3)
  cbin (val_main_call0_v11 x3)
  cnull (val_main_call0_c_3 (F := F))
  cbin (val_main_call0_v12 x3)
  cbin (val_main_call0_v13 x0 x3)
  cun (val_main_call0_v14 x3)
  cnull (val_main_call0_c_4 (F := F))
  cun (val_main_call0_v15 (F := F))
  cter (val_main_v7 x0 x3)
  hresh (val_main_v8 x0 x3)
  hun (val_main_v9 x0 x3)
  hun (val_main_v10 x0 x3)
  -- second gather: the pair table's entry at each neighbour's state, then the sum over the 32 neighbours, plus the site table
  cnull (val_main_call1_c (F := F))
  cun (val_main_call1_v0 (F := F))
  cbin (val_main_call1_v1 x0 x3)
  cnull (val_main_call1_c_0 (F := F))
  cun (val_main_call1_v2 (F := F))
  cbin (val_main_call1_v3 x0 x3)
  cter (val_main_call1_v4 x0 x3)
  cresh (val_main_call1_v5 x0 x3)
  cnull (val_main_call1_c_1 (F := F))
  cnull (val_main_call1_c_2 (F := F))
  cun (val_main_call1_v6 (F := F))
  cbin (val_main_call1_v7 x0 x3)
  cun (val_main_call1_v8 (F := F))
  cun (val_main_call1_v9 (F := F))
  cbin (val_main_call1_v10 x0 x3)
  cbin (val_main_call1_v11 x0 x3)
  cnull (val_main_call1_c_3 (F := F))
  cbin (val_main_call1_v12 x0 x3)
  cbin (val_main_call1_v13 x0 x2 x3 x5)
  cun (val_main_call1_v14 x0 x3)
  cnull (val_main_call1_cst (F := F))
  cun (val_main_call1_v15 (F := F))
  cter (val_main_v11 x0 x2 x3 x5)
  hresh (val_main_v12 x0 x2 x3 x5)
  hnull (val_main_cst (F := F))
  hbin (val_main_v13 x0 x2 x3 x5)
  hbin (val_main_v14 x0 x1 x2 x3 x4 x5)
  -- third gather: that sum, site term included, read at each site's own state
  hun (val_main_v15 x0)
  cnull (val_main_call2_c (F := F))
  cun (val_main_call2_v0 (F := F))
  cbin (val_main_call2_v1 x0)
  cnull (val_main_call2_c_0 (F := F))
  cun (val_main_call2_v2 (F := F))
  cbin (val_main_call2_v3 x0)
  cter (val_main_call2_v4 x0)
  cresh (val_main_call2_v5 x0)
  cnull (val_main_call2_c_1 (F := F))
  cnull (val_main_call2_c_2 (F := F))
  cun (val_main_call2_v6 (F := F))
  cbin (val_main_call2_v7 x0)
  cun (val_main_call2_v8 (F := F))
  cun (val_main_call2_v9 (F := F))
  cbin (val_main_call2_v10 x0)
  cbin (val_main_call2_v11 x0)
  cnull (val_main_call2_c_3 (F := F))
  cbin (val_main_call2_v12 x0)
  cbin (val_main_call2_v13 x0 x1 x2 x3 x4 x5)
  cun (val_main_call2_v14 x0)
  cnull (val_main_call2_cst (F := F))
  cun (val_main_call2_v15 (F := F))
  cter (val_main_v16 x0 x1 x2 x3 x4 x5)
  hresh (val_main_v17 x0 x1 x2 x3 x4 x5)
  -- fourth gather: the neighbour sum alone, read at each site's own state
  hun (val_main_v18 x0)
  cnull (val_main_call3_c (F := F))
  cun (val_main_call3_v0 (F := F))
  cbin (val_main_call3_v1 x0)
  cnull (val_main_call3_c_0 (F := F))
  cun (val_main_call3_v2 (F := F))
  cbin (val_main_call3_v3 x0)
  cter (val_main_call3_v4 x0)
  cresh (val_main_call3_v5 x0)
  cnull (val_main_call3_c_1 (F := F))
  cnull (val_main_call3_c_2 (F := F))
  cun (val_main_call3_v6 (F := F))
  cbin (val_main_call3_v7 x0)
  cun (val_main_call3_v8 (F := F))
  cun (val_main_call3_v9 (F := F))
  cbin (val_main_call3_v10 x0)
  cbin (val_main_call3_v11 x0)
  cnull (val_main_call3_c_3 (F := F))
  cbin (val_main_call3_v12 x0)
  cbin (val_main_call3_v13 x0 x2 x3 x5)
  cun (val_main_call3_v14 x0)
  cnull (val_main_call3_cst (F := F))
  cun (val_main_call3_v15 (F := F))
  cter (val_main_v19 x0 x2 x3 x5)
  hresh (val_main_v20 x0 x2 x3 x5)
  -- the third minus half the fourth, summed over the sites
  hnull (val_main_cst_0 (F := F))
  hun (val_main_v21 (F := F))
  hbin (val_main_v22 x0 x2 x3 x5)
  hbin (val_main_v23 x0 x1 x2 x3 x4 x5)
  hnull (val_main_cst_1 (F := F))
  hbin (val_main_v24 x0 x1 x2 x3 x4 x5)
  exact Leads.stop fun W hW =>
    ⟨hW.read (by lookup), hW.read (by lookup), hW.read (by lookup), hW.read (by lookup), hW.read (by lookup),
      hW.read (by lookup), hW.read (by lookup), hW.read (by lookup)⟩

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = val_main_v14 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  -- the run ends with every buffer at the fold of the operations over the launch contents; the fold is read by `ops_lead`
  refine (θ_run defs _ _).mono (fun _ h c => ?_)
    (run_seq scopedRefs_eq scopedSems_eq defs main (fun _ => ops) main_eq (fun _ => ops_sub) m ρ)
  obtain ⟨h24, h14, a0, a1, a2, a3, a4, a5⟩ :=
    ops_lead (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (launchContents m c)
      (((((((Holds.nil _).cons rfl).cons rfl).cons rfl).cons rfl).cons rfl).cons rfl)
  exact ⟨(h c main_v24).trans h24, (h c main_v14).trans h14, (h c main_arg0).trans a0, (h c main_arg1).trans a1,
    (h c main_arg2).trans a2, (h c main_arg3).trans a3, (h c main_arg4).trans a4, (h c main_arg5).trans a5⟩

end Cert.ReferenceIdeal.Potts

end
-- ==== Proof.Spec.lean ====
/-
  The mathematics both programs compute, stated once over the six argument arrays, index by index.

  A site `n` of 8192 carries a state `S n` in `{0,…,20}`, a field row `h n ·` of 21 entries, and 32 neighbours `E n k`,
  each with a 21 × 21 coupling matrix `J n k` and a weight `mij n k`. The neighbour's state is `S (E n k)`; the coupling
  column it selects, weighted and summed over the 32 neighbours, is `Ji n c`; the site's energy row is
  `Ui n c = h n c · mi n + Ji n c`; and the total energy is the sum over sites of `Ui n (S n) − ½ · Ji n (S n)`.

  Positions and states are read off 32-bit words signed and clamped into their axis, which is what a gather does with a
  start index; on words already in range the clamp is the identity.
-/
import Idealize.ShloMosaic.PureOps.Ideal
import Idealize.ShloMosaic.Lib.ValueIdx

noncomputable section

namespace Cert.Potts

open Idealize.ShloMosaic Idealize.ShloMosaic.ValueIdx

/-- A 32-bit word read signed and clamped into `{0,…,N−1}`. -/
def clampTo (N : Nat) (hN : 0 < N) (w : BitVec 32) : Fin N := ⟨min w.toInt.toNat (N - 1), by omega⟩

/-- On a word whose signed value is already in `[0, N)` the clamp reads the value itself. -/
theorem clampTo_val_of_inRange {N : Nat} (hN : 0 < N) {w : BitVec 32} (h0 : 0 ≤ w.toInt) (h1 : w.toInt < N) :
    (clampTo N hN w).val = w.toInt.toNat := by
  unfold clampTo; simp only; omega

/-- Every word of an integer array lies in `[0, N)` when read signed. -/
def InRange {s : Shape} (N : Nat) (x : s.Idx → BitVec 32) : Prop := ∀ i, 0 ≤ (x i).toInt ∧ (x i).toInt < N

/-- Every entry of a float array is a real number. -/
def IsFinite {s : Shape} (x : s.Idx → EReal) : Prop := ∀ i, ∃ r : ℝ, x i = (r : EReal)

abbrev ShS : Shape := ⟨2, ![1, 8192]⟩
abbrev ShH : Shape := ⟨3, ![1, 8192, 21]⟩
abbrev ShJ : Shape := ⟨5, ![1, 8192, 32, 21, 21]⟩
abbrev ShE : Shape := ⟨3, ![1, 8192, 32]⟩
abbrev ShU : Shape := ⟨1, ![1]⟩

section
variable (S : ShS.Idx → BitVec 32) (h : ShH.Idx → EReal) (J : ShJ.Idx → EReal) (E : ShE.Idx → BitVec 32)
  (mi : ShS.Idx → EReal) (mij : ShE.Idx → EReal)

/-- The position of neighbour `k` of site `n`. -/
def nbPos (n : Fin 8192) (k : Fin 32) : Fin 8192 := clampTo 8192 (by decide) (E (ix3 0 n k))

/-- The state word of neighbour `k` of site `n`. -/
def nbWord (n : Fin 8192) (k : Fin 32) : BitVec 32 := S (ix2 0 (nbPos E n k))

/-- A state word as a column of a coupling matrix. -/
def col (w : BitVec 32) : Fin 21 := clampTo 21 (by decide) w

/-- The coupling a site receives in state `c`: over its neighbours, the entry of the neighbour's coupling matrix in row
    `c` and the neighbour's state's column, weighted. -/
def Ji (n : Fin 8192) (c : Fin 21) : EReal :=
  ∑ k : Fin 32, J (ix5 0 n k c (col (nbWord S E n k))) * mij (ix3 0 n k)

/-- The masked field entry of site `n` in state `c`. -/
def hm (n : Fin 8192) (c : Fin 21) : EReal := h (ix3 0 n c) * mi (ix2 0 n)

/-- The energy row of site `n`. -/
def Ui (n : Fin 8192) (c : Fin 21) : EReal := hm h mi n c + Ji S J E mij n c

/-- One half, as the programs' literal. -/
abbrev half : EReal := Ideal.ofBits .f32 0x3F000000#32

/-- The total energy: each site's own-state energy less half its own-state coupling. -/
def Utot : EReal :=
  ∑ n : Fin 8192, (Ui S h J E mi mij n (col (S (ix2 0 n))) - half * Ji S J E mij n (col (S (ix2 0 n))))

/-- The second result, as an array over [1, 8192, 21]. -/
def specUi : ShH.Idx → EReal := fun i => Ui S h J E mi mij (i 1) (i 2)

/-- The first result, as an array over [1]. -/
def specU : ShU.Idx → EReal := fun _ => Utot S h J E mi mij

end

/-! ## The two laws that join the sides -/

/-- A sum against a one-hot row picks one entry: `0` annihilates every extended real, `1` keeps it. -/
theorem sum_mul_onehot {n : Nat} (f : Fin n → EReal) (s : Fin n) :
    (∑ d : Fin n, f d * (if d = s then (1 : EReal) else 0)) = f s := by
  rw [Finset.sum_eq_single s]
  · simp
  · intro d _ hd; simp [hd]
  · intro hs; exact absurd (Finset.mem_univ s) hs

/-- Adding a real number and taking it away again leaves any extended real as it was. -/
theorem add_sub_cancel_real (a : ℝ) (b : EReal) : ((a : EReal) + b) - (a : EReal) = b := by
  rw [sub_eq_add_neg, add_comm (a : EReal) b, add_assoc]
  have : (a : EReal) + -(a : EReal) = 0 := by
    rw [← EReal.coe_neg, ← EReal.coe_add]; simp
  rw [this, add_zero]

end Cert.Potts

end
-- ==== Proof.PreFacts.lean ====
/-
  What the precondition says of the six argument arrays: the four float arrays hold real numbers, every state lies in
  `[0, 21)` and every neighbour position in `[0, 8192)`.
-/
import proofs.«426380_j2448131358775_1_alg».proof.Pre_finite_inputs
import proofs.«426380_j2448131358775_1_alg».proof.Proof.Gen.Pre_finite_inputs
import proofs.«426380_j2448131358775_1_alg».proof.Proof.Spec
import Idealize.ShloMosaic.Lib.ReduceAll
import Idealize.ShloMosaic.Lib.StableHlo.Predicate

noncomputable section

namespace Cert.Potts

open Idealize.ShloMosaic Idealize.ShloMosaic.ValueIdx

open Cert.Pre_finite_inputs (S_)

namespace PreFacts

/-- The result shape has no axes, hence one index. -/
instance subsingleton_idx : Subsingleton S_.Idx := ⟨fun a b => funext fun d => d.elim0⟩

/-- An extended real whose absolute value lies strictly below +∞ is a real number: −∞ and +∞ both have absolute
    value +∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; revert h; simp [Ideal.cmp]
  | coe r => exact ⟨r, rfl⟩
  | top => exfalso; revert h; simp [Ideal.cmp]

/-- The conjunction of two flags, read at the one index, holds exactly when both do. -/
theorem and_ix0 (a b : IVec S_ 1) : andi a b ix0 = 1#1 ↔ a ix0 = 1#1 ∧ b ix0 = 1#1 :=
  IntOp.andi_eq_one

/-- "Every |x| is below +∞" over a whole float array says every entry is real. -/
theorem finite_of_all {s : Shape} {axes : List (Fin s.rank)} (x : s.Idx → EReal)
    (hb : S_.BroadcastsInDim s (![] : Fin 0 → Fin s.rank)) (hr : s.ReducesTo axes S_) (h0 : 0 < S_.numel)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr h0 ix0 = 1#1) : IsFinite x := by
  intro i
  have hi : Ideal.cmp .olt (max (x i) (-(x i))) (Ideal.ofBits .f32 0x7F800000#32) = 1#1 :=
    Host.reduce_andi_all _ _ hr h0 ix0 e i
  exact real_of_abs_lt_inf (x i) hi

/-- "Every word is at least 0, read signed" over a whole integer array. -/
theorem nonneg_of_all {s : Shape} {axes : List (Fin s.rank)} (x : s.Idx → BitVec 32)
    (hb : S_.BroadcastsInDim s (![] : Fin 0 → Fin s.rank)) (hr : s.ReducesTo axes S_) (h0 : 0 < S_.numel)
    (e : Host.reduce IntOp.andi (cmpi .sge x (broadcastInDim s ![] hb (constantI S_ 32 0#32)))
          (constantI S_ 1 1#1) hr h0 ix0 = 1#1) (i : s.Idx) : 0 ≤ (x i).toInt := by
  have hi : IntOp.cmpi .sge (x i) 0#32 = 1#1 := Host.reduce_andi_all _ _ hr h0 ix0 e i
  have h := IntOp.cmpi_sge.1 hi
  rwa [show (0#32 : BitVec 32).toInt = 0 from by decide] at h

/-- "Every word is below the literal N, read signed" over a whole integer array. -/
theorem below_of_all {s : Shape} {axes : List (Fin s.rank)} (N : Nat) (hN : (BitVec.ofNat 32 N).toInt = N)
    (x : s.Idx → BitVec 32)
    (hb : S_.BroadcastsInDim s (![] : Fin 0 → Fin s.rank)) (hr : s.ReducesTo axes S_) (h0 : 0 < S_.numel)
    (e : Host.reduce IntOp.andi (cmpi .slt x (broadcastInDim s ![] hb (constantI S_ 32 (BitVec.ofNat 32 N))))
          (constantI S_ 1 1#1) hr h0 ix0 = 1#1) (i : s.Idx) : (x i).toInt < N := by
  have hi : IntOp.cmpi .slt (x i) (BitVec.ofNat 32 N) = 1#1 := Host.reduce_andi_all _ _ hr h0 ix0 e i
  have h := IntOp.cmpi_slt.1 hi
  rwa [hN] at h

end PreFacts

open PreFacts in
/-- The precondition, read: all ones exactly when the float inputs are finite and the integer inputs are in range. -/
theorem facts_of_pre [Cert.Pre_finite_inputs.Facts]
    (S : ShS.Idx → BitVec 32) (h : ShH.Idx → EReal) (J : ShJ.Idx → EReal) (E : ShE.Idx → BitVec 32)
    (mi : ShS.Idx → EReal) (mij : ShE.Idx → EReal)
    (hpre : Cert.Pre_finite_inputs.fn (F := Ideal) S h J E mi mij = fun _ => 1#1) :
    IsFinite h ∧ IsFinite J ∧ IsFinite mi ∧ IsFinite mij ∧ InRange 21 S ∧ InRange 8192 E := by
  -- the one flag the predicate returns is the conjunction of eight "all" tests, in the order they are written
  have e := congrFun hpre ValueIdx.ix0
  dsimp only [Cert.Pre_finite_inputs.fn, Cert.Pre_finite_inputs.fn_part1, Cert.Pre_finite_inputs.fn_part2] at e
  obtain ⟨e, eEhi⟩ := (and_ix0 _ _).1 e
  obtain ⟨e, eElo⟩ := (and_ix0 _ _).1 e
  obtain ⟨e, eShi⟩ := (and_ix0 _ _).1 e
  obtain ⟨e, eSlo⟩ := (and_ix0 _ _).1 e
  obtain ⟨e, emij⟩ := (and_ix0 _ _).1 e
  obtain ⟨e, emi⟩ := (and_ix0 _ _).1 e
  obtain ⟨eh, eJ⟩ := (and_ix0 _ _).1 e
  exact ⟨finite_of_all h _ _ _ eh, finite_of_all J _ _ _ eJ, finite_of_all mi _ _ _ emi, finite_of_all mij _ _ _ emij,
    fun i => ⟨nonneg_of_all S _ _ _ eSlo i, below_of_all 21 (by decide) S _ _ _ eShi i⟩,
    fun i => ⟨nonneg_of_all E _ _ _ eElo i, below_of_all 8192 (by decide) E _ _ _ eEhi i⟩⟩

end Cert.Potts

end
-- ==== Proof.KArgs.lean ====
/-
  Names for the kernel program's six argument arrays on a core, at their literal types.
-/
import proofs.«426380_j2448131358775_1_alg».proof.Proof.FrameKernelIdeal
import proofs.«426380_j2448131358775_1_alg».proof.Proof.Spec

noncomputable section

namespace Cert.KernelIdeal.Potts

open Cert.KernelIdeal Cert.KernelIdeal.Gen Cert.KernelIdeal.GenP Cert.Potts Idealize.ShloMosaic Idealize.ShloMosaic.TcCoe Idealize.SL.Sem

variable (m : (ℓ : Loc nD τ sig) → Buf (Elt Ideal) ℓ)

abbrev aS (c : Dev nD) : ShS.Idx → BitVec 32 := m ((c.tc : Thread nD τ).loc main_arg0)
abbrev aH (c : Dev nD) : ShH.Idx → EReal := m ((c.tc : Thread nD τ).loc main_arg1)
abbrev aJ (c : Dev nD) : ShJ.Idx → EReal := m ((c.tc : Thread nD τ).loc main_arg2)
abbrev aE (c : Dev nD) : ShE.Idx → BitVec 32 := m ((c.tc : Thread nD τ).loc main_arg3)
abbrev aMi (c : Dev nD) : ShS.Idx → EReal := m ((c.tc : Thread nD τ).loc main_arg4)
abbrev aMij (c : Dev nD) : ShE.Idx → EReal := m ((c.tc : Thread nD τ).loc main_arg5)

end Cert.KernelIdeal.Potts

end
-- ==== Proof.Words.lean ====
/-
  32-bit words that are indices in range: what indexing with a negative-index shift and a bounds test does with them,
  one word at a time.
  A word `w` with `0 ≤ w < N` (read signed) is not shifted by the negative-index rule, passes the bounds test
  `0 ≤ w ≤ N − 1`, and compares equal to the position `d` of a lane exactly when `d` is its value.
-/
import proofs.«426380_j2448131358775_1_alg».proof.Proof.Spec
import Idealize.ShloMosaic.PureOps

noncomputable section

namespace Cert.Potts

open Idealize.ShloMosaic

/-- A boolean packed into one bit is the set bit exactly when the boolean is true. -/
private theorem ofBool_eq_one (b : Bool) : BitVec.ofBool b = 1#1 ↔ b = true := by cases b <;> decide

/-- A word whose signed reading is nonnegative has that reading as its unsigned value, which is below 2³¹. -/
private theorem toNat_of_nonneg (w : BitVec 32) (h0 : 0 ≤ w.toInt) : (w.toNat : Int) = w.toInt ∧ w.toNat < 2147483648 := by
  have hlt : w.toNat < 4294967296 := w.isLt
  have hc := BitVec.toInt_eq_toNat_cond w
  simp only [show (2 : Nat) ^ 32 = 4294967296 from by norm_num] at hc
  split at hc <;> omega

/-- A small natural number, as a word, reads signed as itself. -/
private theorem toInt_ofNat_lt (a : Nat) (ha : a < 2147483648) : (BitVec.ofNat 32 a).toInt = a := by
  have hc := BitVec.toInt_eq_toNat_cond (BitVec.ofNat 32 a)
  simp only [BitVec.toNat_ofNat, show (2 : Nat) ^ 32 = 4294967296 from by norm_num] at hc
  have hm : a % 4294967296 = a := Nat.mod_eq_of_lt (by omega)
  rw [hm] at hc
  split at hc <;> omega

/-- A nonnegative word is not below zero: the negative-index shift `select (w < 0) (w + N) w` leaves it alone. -/
theorem select_norm_of_nonneg (w N : BitVec 32) (h0 : 0 ≤ w.toInt) :
    Scalar.select (IntOp.cmpi .slt w 0#32) (IntOp.addi w N) w = w := by
  have hz : (0#32 : BitVec 32).toInt = 0 := by decide
  have hc : ¬ IntOp.cmpi .slt w 0#32 = 1#1 := by
    unfold IntOp.cmpi
    rw [ofBool_eq_one]
    simp only [BitVec.slt, hz, decide_eq_true_eq]
    omega
  unfold Scalar.select
  exact if_neg hc

/-- The bounds test `(w ≥ 0) ∧ (w ≤ N − 1)` holds of a word in `[0, N)`. -/
theorem valid_of_inRange (w : BitVec 32) (N : Nat) (hN : 0 < N) (hN' : N < 2 ^ 31) (h0 : 0 ≤ w.toInt) (h1 : w.toInt < N) :
    IntOp.andi (IntOp.cmpi .sge w 0#32) (IntOp.cmpi .sle w (BitVec.ofNat 32 (N - 1))) = 1#1 := by
  have hz : (0#32 : BitVec 32).toInt = 0 := by decide
  have hN2 : N < 2147483648 := by
    have : (2 : Nat) ^ 31 = 2147483648 := by norm_num
    omega
  have hhi : (BitVec.ofNat 32 (N - 1)).toInt = ((N - 1 : Nat) : Int) := toInt_ofNat_lt (N - 1) (by omega)
  have hge : IntOp.cmpi .sge w 0#32 = 1#1 := by
    unfold IntOp.cmpi
    rw [ofBool_eq_one]
    simp only [BitVec.sle, hz, decide_eq_true_eq]
    exact h0
  have hle : IntOp.cmpi .sle w (BitVec.ofNat 32 (N - 1)) = 1#1 := by
    unfold IntOp.cmpi
    rw [ofBool_eq_one]
    simp only [BitVec.sle, hhi, decide_eq_true_eq]
    omega
  rw [hge, hle]
  decide

/-- A lane position `d < 21`, as a word, equals a state word in `[0, 21)` exactly when `d` is the state's column; read as a
    0/1 integer and converted to a float it is the one-hot entry. -/
theorem onehot_entry (d : Fin 21) (w : BitVec 32) (h0 : 0 ≤ w.toInt) (h1 : w.toInt < 21) :
    Scalar.sitofp (F := Ideal) .f32 ((IntOp.cmpi .eq (BitVec.ofNat 32 d.val) w).setWidth 32)
      = if d = col w then (1 : EReal) else 0 := by
  obtain ⟨hnat, _⟩ := toNat_of_nonneg w h0
  have hcol : (col w).val = w.toInt.toNat := clampTo_val_of_inRange (by decide) h0 h1
  have hd : d.val < 21 := d.isLt
  -- the word of the lane position equals the state word exactly when the position is the state's column
  have hiff : BitVec.ofNat 32 d.val = w ↔ d = col w := by
    constructor
    · intro h
      have hv : (BitVec.ofNat 32 d.val).toNat = w.toNat := by rw [h]
      rw [BitVec.toNat_ofNat, Nat.mod_eq_of_lt (by omega)] at hv
      apply Fin.ext
      rw [hcol]; omega
    · intro h
      have hv : d.val = w.toInt.toNat := by rw [h, hcol]
      apply BitVec.eq_of_toNat_eq
      rw [BitVec.toNat_ofNat, Nat.mod_eq_of_lt (by omega)]
      omega
  rw [Ideal.scalar_sitofp_def]
  by_cases hdc : d = col w
  · have he : IntOp.cmpi .eq (BitVec.ofNat 32 d.val) w = 1#1 := by
      unfold IntOp.cmpi
      rw [ofBool_eq_one]
      simp only [beq_iff_eq]
      exact hiff.mpr hdc
    rw [he, if_pos hdc]
    have : ((1#1 : BitVec 1).setWidth 32).toInt = 1 := by decide
    rw [this]; simp
  · have he : IntOp.cmpi .eq (BitVec.ofNat 32 d.val) w = 0#1 := by
      unfold IntOp.cmpi
      have : (BitVec.ofNat 32 d.val == w) = false := by
        rw [beq_eq_false_iff_ne]
        exact fun h => hdc (hiff.mp h)
      simp only [this]
      decide
    rw [he, if_neg hdc]
    have : ((0#1 : BitVec 1).setWidth 32).toInt = 0 := by decide
    rw [this]; simp

end Cert.Potts

end
-- ==== Proof.KPayload.lean ====
/-
  The kernel body's one stored value, read at row `r` and state `c` of its 128 × 21 block: the field block's entry plus, over
  the 32 neighbours, the coupling block's row `c` contracted against the one-hot row of the neighbour's state and weighted.
  With the state word in range the one-hot contraction is the single entry in the state's column.
-/
import proofs.«426380_j2448131358775_1_alg».proof.Proof.Gen.KernelIdeal.Skeleton
import proofs.«426380_j2448131358775_1_alg».proof.Proof.Spec
import proofs.«426380_j2448131358775_1_alg».proof.Proof.Words
import Idealize.ShloMosaic.Lib.Pipeline.Value
import Idealize.ShloMosaic.Lib.ValueLayout
import Idealize.ShloMosaic.PureOps.Ideal.Laws

noncomputable section

namespace Cert.KernelIdeal.Potts

open Cert.KernelIdeal Cert.KernelIdeal.Gen Cert.Potts Idealize.ShloMosaic Idealize.ShloMosaic.ValueIdx

/-! ## The layout steps, each read at explicit coordinates -/

section Layout
variable {α : Type}

/-- A 128 × 32 array viewed with a trailing unit axis reads, at (r, k, ·), its entry (r, k): both positions are
    `32 r + k` in row-major order. -/
theorem castCol_apply (x : S128x32.Idx → α) (h : S128x32.ShapeCasts S128x32x1) (r : Fin 128) (k : Fin 32) (z : Fin 1) :
    shapeCast S128x32x1 x h (ix3 r k z) = x (ix2 r k) := by
  refine shapeCast_apply x h _ _ ?_
  rw [Shape.rowMajor_val_three, Shape.rowMajor_val_two]
  show r.val * 32 + k.val = (r.val * 32 + k.val) * 1 + z.val
  omega

/-- Spreading that unit axis over the 21 states repeats the entry: at (r, k, d) it is the entry (r, k, 0). -/
theorem bcastCol_apply (x : S128x32x1.Idx → α) (h : S128x32x1.Broadcasts S128x32x21) (r : Fin 128) (k : Fin 32)
    (d : Fin 21) : broadcastTo S128x32x21 x h (ix3 r k d) = x (ix3 r k 0) := by
  refine broadcastTo_apply x h _ _ fun a => ?_
  match a with
  | ⟨0, _⟩ => rfl
  | ⟨1, _⟩ => rfl
  | ⟨2, _⟩ => rfl

/-- A 128 × 32 × 21 array viewed with a unit axis before the last reads, at (r, k, ·, d), its entry (r, k, d): both
    positions are `21 (32 r + k) + d`. -/
theorem castRow_apply (x : S128x32x21.Idx → α) (h : S128x32x21.ShapeCasts S128x32x1x21) (r : Fin 128) (k : Fin 32)
    (z : Fin 1) (d : Fin 21) : shapeCast S128x32x1x21 x h (ix4 r k z d) = x (ix3 r k d) := by
  refine shapeCast_apply x h _ _ ?_
  rw [Shape.rowMajor_val_four, Shape.rowMajor_val_three]
  show (r.val * 32 + k.val) * 21 + d.val = ((r.val * 32 + k.val) * 1 + z.val) * 21 + d.val
  omega

/-- Spreading that unit axis over the 21 rows of a coupling matrix repeats the row: at (r, k, c, d) it is the entry
    (r, k, 0, d), whatever the row `c`. -/
theorem bcastRow_apply (x : S128x32x1x21.Idx → α) (h : S128x32x1x21.Broadcasts S128x32x21x21) (r : Fin 128) (k : Fin 32)
    (c d : Fin 21) : broadcastTo S128x32x21x21 x h (ix4 r k c d) = x (ix4 r k 0 d) := by
  refine broadcastTo_apply x h _ _ fun a => ?_
  match a with
  | ⟨0, _⟩ => rfl
  | ⟨1, _⟩ => rfl
  | ⟨2, _⟩ => rfl
  | ⟨3, _⟩ => rfl

end Layout

/-- The counter along the state axis reads, at (r, k, d), the word of `d`. -/
theorem iotaState_apply (h : S128x32x21.Iotas .tc 32 [2]) (r : Fin 128) (k : Fin 32) (d : Fin 21) :
    iota .tc S128x32x21 32 [2] h (ix3 r k d) = BitVec.ofNat 32 d.val :=
  iota_single_apply .tc S128x32x21 32 2 h (ix3 r k d)

/-- A comparison of two integer arrays is taken entry by entry. -/
theorem cmpiWord_apply {s : Shape} {w : Nat} (p : CmpIPredicate) (x y : IVec s w) (i : s.Idx) :
    cmpi p x y i = IntOp.cmpi p (x i) (y i) := rfl

/-! ## The two sums, each as a sum over the coordinate it removes -/

/-- Over (r, k, c), the index of the 128 × 32 × 21 × 21 array with `d` put on the last axis is (r, k, c, d). -/
theorem liftState (h : S128x32x21x21.Reduces [3] S128x32x21) (r : Fin 128) (k : Fin 32) (c d : Fin 21) :
    h.lift (ix3 r k c) d = ix4 r k c d := by
  funext a
  match a with
  | ⟨0, _⟩ => exact Fin.ext rfl
  | ⟨1, _⟩ => exact Fin.ext rfl
  | ⟨2, _⟩ => exact Fin.ext rfl
  | ⟨3, _⟩ => exact Fin.ext rfl

/-- Over (r, c), the index of the 128 × 32 × 21 array with `k` put on the middle axis is (r, k, c). -/
theorem liftNb (h : S128x32x21.Reduces [1] S128x21) (r : Fin 128) (c : Fin 21) (k : Fin 32) :
    h.lift (ix2 r c) k = ix3 r k c := by
  funext a
  match a with
  | ⟨0, _⟩ => exact Fin.ext rfl
  | ⟨1, _⟩ => exact Fin.ext rfl
  | ⟨2, _⟩ => exact Fin.ext rfl

/-- The sum over the neighbour axis, at (r, c): the 32 entries (r, k, c) added up. -/
theorem sumNb_apply (x : FVec Ideal S128x32x21 .f32) (h : S128x32x21.Reduces [1] S128x21) (hφ : FKind.Formats .f32)
    (hacc : (0x00000000#32 : BitVec 32) = FKind.add.neutral .f32 hφ) (r : Fin 128) (c : Fin 21) :
    multiReduction (F := Ideal) .add [1] S128x21 x 0x00000000#32 h hφ hacc (ix2 r c) = ∑ k : Fin 32, x (ix3 r k c) := by
  refine (Ideal.multiReduction_add_single x _ h hφ hacc (ix2 r c)).trans ?_
  show ∑ k : Fin 32, x (h.lift (ix2 r c) k) = _
  exact Finset.sum_congr rfl fun k _ => by rw [liftNb]

/-- The sum over the last state axis, at (r, k, c): the 21 entries (r, k, c, d) added up. -/
theorem sumState_apply (x : FVec Ideal S128x32x21x21 .f32) (h : S128x32x21x21.Reduces [3] S128x32x21)
    (hφ : FKind.Formats .f32) (hacc : (0x00000000#32 : BitVec 32) = FKind.add.neutral .f32 hφ) (r : Fin 128) (k : Fin 32)
    (c : Fin 21) :
    multiReduction (F := Ideal) .add [3] S128x32x21 x 0x00000000#32 h hφ hacc (ix3 r k c)
      = ∑ d : Fin 21, x (ix4 r k c d) := by
  refine (Ideal.multiReduction_add_single x _ h hφ hacc (ix3 r k c)).trans ?_
  show ∑ d : Fin 21, x (h.lift (ix3 r k c) d) = _
  exact Finset.sum_congr rfl fun d _ => by rw [liftState]

/-! ## The stored value at (r, c) -/

/-- At (r, c) the body stores the field entry plus, over the neighbours `k`, the weight times the contraction over `d` of
    the coupling entry (r, k, c, d) with the indicator that `d` is the neighbour's state. The state word lies in
    `[0, 21)`, so the indicator is one exactly at the state's column and the contraction keeps that single entry. -/
theorem pay_apply (v0 : Vec Ideal S128x32x21x21 .f32) (v2 : Vec Ideal S128x32 .i32) (v4 : Vec Ideal S128x32 .f32)
    (v6 : Vec Ideal S128x21 .f32) (r : Fin 128) (c : Fin 21)
    (hv2 : ∀ k : Fin 32, 0 ≤ (v2 (ix2 r k)).toInt ∧ (v2 (ix2 r k)).toInt < 21) :
    k0_pay1 (F := Ideal) v0 v2 v4 v6 (ix2 r c)
      = v6 (ix2 r c) + ∑ k : Fin 32, v0 (ix4 r k c (col (v2 (ix2 r k)))) * v4 (ix2 r k) := by
  unfold k0_pay1
  dsimp only
  -- the outer sum: field entry plus the sum over the neighbours
  refine (addf_apply _ _ _).trans ?_
  refine congrArg₂ (· + ·) (congrFun (shapeCast_self v6 _) _) ?_
  refine (sumNb_apply _ _ _ _ r c).trans (Finset.sum_congr rfl fun k _ => ?_)
  -- one neighbour: the contraction over the states times the weight
  refine (mulf_apply _ _ _).trans ?_
  refine congrArg₂ (· * ·) ?_ ?_
  · refine (sumState_apply _ _ _ _ r k c).trans ?_
    rw [← sum_mul_onehot (fun d => v0 (ix4 r k c d)) (col (v2 (ix2 r k)))]
    refine Finset.sum_congr rfl fun d _ => ?_
    -- one term: the coupling entry times the indicator, read back through the layout steps to the state word
    rw [mulf_apply, shapeCast_self, bcastRow_apply, castRow_apply, sitofp_apply, extui_apply, cmpiWord_apply,
      iotaState_apply, bcastCol_apply, castCol_apply, shapeCast_self]
    exact congrArg (v0 (ix4 r k c d) * ·) (onehot_entry d (v2 (ix2 r k)) (hv2 k).1 (hv2 k).2)
  · rw [bcastCol_apply, castCol_apply, shapeCast_self]

end Cert.KernelIdeal.Potts

end
-- ==== Proof.GatherReads.lean ====
/-
  The five gathers of the two programs, each read at one result index: the operand at the start index's word, read signed and
  clamped into the gathered axis, every other coordinate carried over from the result index.
-/
import proofs.«426380_j2448131358775_1_alg».proof.KernelIdeal
import proofs.«426380_j2448131358775_1_alg».proof.ReferenceIdeal
import proofs.«426380_j2448131358775_1_alg».proof.Proof.Spec

noncomputable section

namespace Cert.Potts

open Idealize.ShloMosaic Idealize.ShloMosaic.ValueIdx

/-! ## The kernel's program -/

section Kernel

variable [Cert.KernelIdeal.Facts]

/-- `jnp.take` of a vector of 8192 words at 262144 positions: entry `p` is the vector at position `p`'s word. -/
theorem take_S0 {α : Type} (x : Cert.KernelIdeal.S8192.Idx → α) (idx : IVec Cert.KernelIdeal.S262144x1 32) (p : Fin 262144) :
    Host.gather Cert.KernelIdeal.gather_S8192_S262144x1_S262144_n_0_n_n_0_1_1 x idx (ix1 p)
      = x (ix1 (clampTo 8192 (by decide) (idx (ix2 p 0)))) := by
  -- the one operand axis is collapsed and start-indexed: no batching or offset part, and the start index is read at [p, 0]
  have hob : (0 : Fin 1) ∉ Cert.KernelIdeal.gather_S8192_S262144x1_S262144_n_0_n_n_0_1_1.operandBatchingDims :=
    show (0 : Fin 1) ∉ ([] : List (Fin 1)) from by decide
  have hcol : (0 : Fin 1) ∈ Cert.KernelIdeal.gather_S8192_S262144x1_S262144_n_0_n_n_0_1_1.collapsedSliceDims :=
    show (0 : Fin 1) ∈ ([0] : List (Fin 1)) from by decide
  have hsim : (0 : Fin 1) ∈ Cert.KernelIdeal.gather_S8192_S262144x1_S262144_n_0_n_n_0_1_1.startIndexMap :=
    show (0 : Fin 1) ∈ ([0] : List (Fin 1)) from by decide
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ hob,
      GatherDims.offCoord_eq_zero _ _ _ (fun h => ((GatherDims.mem_sKept _ _).mp h).1 hcol)]
    simp only [Nat.add_zero]
    unfold GatherDims.start
    rw [dif_pos hsim]
    have hsi : Cert.KernelIdeal.gather_S8192_S262144x1_S262144_n_0_n_n_0_1_1.siIdx (ix1 p)
        ⟨List.idxOf (0 : Fin 1) Cert.KernelIdeal.gather_S8192_S262144x1_S262144_n_0_n_n_0_1_1.startIndexMap,
          List.idxOf_lt_length_iff.2 hsim⟩ = ix2 p 0 := by
      funext b; refine Fin.ext ?_
      match b with
      | ⟨0, _⟩ => rfl
      | ⟨1, _⟩ => rfl
    rw [hsi]
    rfl

/-- `take_along_axis` of an [8192, 21] array along its rows: row `n`'s one result is that row at its word's column. -/
theorem take_row {α : Type} (x : Cert.KernelIdeal.S8192x21.Idx → α) (idx : IVec Cert.KernelIdeal.S8192x1x1 32) (n : Fin 8192) :
    Host.gather Cert.KernelIdeal.gather_S8192x21_S8192x1x1_S8192x1_n_1_0_0_1_2_11 x idx (ix2 n 0)
      = x (ix2 n (clampTo 21 (by decide) (idx (ix3 n 0 0)))) := by
  have hob0 : (0 : Fin 2) ∈ Cert.KernelIdeal.gather_S8192x21_S8192x1x1_S8192x1_n_1_0_0_1_2_11.operandBatchingDims :=
    show (0 : Fin 2) ∈ ([0] : List (Fin 2)) from by decide
  have hob1 : (1 : Fin 2) ∉ Cert.KernelIdeal.gather_S8192x21_S8192x1x1_S8192x1_n_1_0_0_1_2_11.operandBatchingDims :=
    show (1 : Fin 2) ∉ ([0] : List (Fin 2)) from by decide
  have hcol1 : (1 : Fin 2) ∈ Cert.KernelIdeal.gather_S8192x21_S8192x1x1_S8192x1_n_1_0_0_1_2_11.collapsedSliceDims :=
    show (1 : Fin 2) ∈ ([1] : List (Fin 2)) from by decide
  have hsim1 : (1 : Fin 2) ∈ Cert.KernelIdeal.gather_S8192x21_S8192x1x1_S8192x1_n_1_0_0_1_2_11.startIndexMap :=
    show (1 : Fin 2) ∈ ([1] : List (Fin 2)) from by decide
  unfold Host.gather
  congr 1
  funext a
  refine Fin.ext ?_
  match a with
  | ⟨0, _⟩ =>
    -- the batching axis carries the result's row over: start 0, no offset part
    show GatherDims.start _ _ idx 0 + GatherDims.batchCoord _ _ 0 + GatherDims.offCoord _ _ 0 = n.val
    rw [GatherDims.start_batching _ _ _ _ hob0,
      GatherDims.offCoord_eq_zero _ _ _ (fun h => ((GatherDims.mem_sKept _ _).mp h).2 hob0)]
    simp only [Nat.add_zero, Nat.zero_add]
    unfold GatherDims.batchCoord
    rw [dif_pos hob0]
    rfl
  | ⟨1, _⟩ =>
    show GatherDims.start _ _ idx 1 + GatherDims.batchCoord _ _ 1 + GatherDims.offCoord _ _ 1 = _
    rw [GatherDims.batchCoord_eq_zero _ _ _ hob1,
      GatherDims.offCoord_eq_zero _ _ _ (fun h => ((GatherDims.mem_sKept _ _).mp h).1 hcol1)]
    simp only [Nat.add_zero]
    unfold GatherDims.start
    rw [dif_pos hsim1]
    have hsi : Cert.KernelIdeal.gather_S8192x21_S8192x1x1_S8192x1_n_1_0_0_1_2_11.siIdx (ix2 n 0)
        ⟨List.idxOf (1 : Fin 2) Cert.KernelIdeal.gather_S8192x21_S8192x1x1_S8192x1_n_1_0_0_1_2_11.startIndexMap,
          List.idxOf_lt_length_iff.2 hsim1⟩ = ix3 n 0 0 := by
      funext b; refine Fin.ext ?_
      match b with
      | ⟨0, _⟩ => rfl
      | ⟨1, _⟩ => rfl
      | ⟨2, _⟩ => rfl
    rw [hsi]
    rfl

end Kernel

/-! ## The reference -/

section Reference

variable [Cert.ReferenceIdeal.Facts]

/-- `take_along_axis` of the [1, 8192] state row at 262144 positions. -/
theorem ref_take_S {α : Type} (x : Cert.ReferenceIdeal.S1x8192.Idx → α) (idx : IVec Cert.ReferenceIdeal.S262144x1 32) (p : Fin 262144) :
    Host.gather Cert.ReferenceIdeal.gather_S1x8192_S262144x1_S1x262144_0_1_n_n_1_1_11 x idx (ix2 0 p)
      = x (ix2 0 (clampTo 8192 (by decide) (idx (ix2 p 0)))) := by
  have hob0 : (0 : Fin 2) ∉ Cert.ReferenceIdeal.gather_S1x8192_S262144x1_S1x262144_0_1_n_n_1_1_11.operandBatchingDims :=
    show (0 : Fin 2) ∉ ([] : List (Fin 2)) from by decide
  have hob1 : (1 : Fin 2) ∉ Cert.ReferenceIdeal.gather_S1x8192_S262144x1_S1x262144_0_1_n_n_1_1_11.operandBatchingDims :=
    show (1 : Fin 2) ∉ ([] : List (Fin 2)) from by decide
  have hcol0 : (0 : Fin 2) ∉ Cert.ReferenceIdeal.gather_S1x8192_S262144x1_S1x262144_0_1_n_n_1_1_11.collapsedSliceDims :=
    show (0 : Fin 2) ∉ ([1] : List (Fin 2)) from by decide
  have hcol1 : (1 : Fin 2) ∈ Cert.ReferenceIdeal.gather_S1x8192_S262144x1_S1x262144_0_1_n_n_1_1_11.collapsedSliceDims :=
    show (1 : Fin 2) ∈ ([1] : List (Fin 2)) from by decide
  have hsim0 : (0 : Fin 2) ∉ Cert.ReferenceIdeal.gather_S1x8192_S262144x1_S1x262144_0_1_n_n_1_1_11.startIndexMap :=
    show (0 : Fin 2) ∉ ([1] : List (Fin 2)) from by decide
  have hsim1 : (1 : Fin 2) ∈ Cert.ReferenceIdeal.gather_S1x8192_S262144x1_S1x262144_0_1_n_n_1_1_11.startIndexMap :=
    show (1 : Fin 2) ∈ ([1] : List (Fin 2)) from by decide
  unfold Host.gather
  congr 1
  funext a
  refine Fin.ext ?_
  match a with
  | ⟨0, _⟩ =>
    -- the offset axis has extent one: start 0, no batching part, and an offset below the slice size 1
    show GatherDims.start _ _ idx 0 + GatherDims.batchCoord _ _ 0 + GatherDims.offCoord _ _ 0 = 0
    have hoff := GatherDims.offCoord_lt Cert.ReferenceIdeal.gather_S1x8192_S262144x1_S1x262144_0_1_n_n_1_1_11
      (ix2 0 p) 0 ((GatherDims.mem_sKept _ _).mpr ⟨hcol0, hob0⟩)
    have hsl : Cert.ReferenceIdeal.gather_S1x8192_S262144x1_S1x262144_0_1_n_n_1_1_11.sliceSizes 0 = 1 := rfl
    rw [GatherDims.batchCoord_eq_zero _ _ _ hob0]
    unfold GatherDims.start
    rw [dif_neg hsim0]
    omega
  | ⟨1, _⟩ =>
    show GatherDims.start _ _ idx 1 + GatherDims.batchCoord _ _ 1 + GatherDims.offCoord _ _ 1 = _
    rw [GatherDims.batchCoord_eq_zero _ _ _ hob1,
      GatherDims.offCoord_eq_zero _ _ _ (fun h => ((GatherDims.mem_sKept _ _).mp h).1 hcol1)]
    simp only [Nat.add_zero]
    unfold GatherDims.start
    rw [dif_pos hsim1]
    have hsi : Cert.ReferenceIdeal.gather_S1x8192_S262144x1_S1x262144_0_1_n_n_1_1_11.siIdx (ix2 0 p)
        ⟨List.idxOf (1 : Fin 2) Cert.ReferenceIdeal.gather_S1x8192_S262144x1_S1x262144_0_1_n_n_1_1_11.startIndexMap,
          List.idxOf_lt_length_iff.2 hsim1⟩ = ix2 p 0 := by
      funext b; refine Fin.ext ?_
      match b with
      | ⟨0, _⟩ => rfl
      | ⟨1, _⟩ => rfl
    rw [hsi]
    rfl

/-- `take_along_axis` of the [1, 8192, 32, 21, 21] couplings along the last axis, one column per (site, neighbour, row). -/
theorem ref_take_J {α : Type} (x : Cert.ReferenceIdeal.S1x8192x32x21x21.Idx → α) (idx : IVec Cert.ReferenceIdeal.S8192x32x21x1x1 32)
    (n : Fin 8192) (k : Fin 32) (c : Fin 21) :
    Host.gather Cert.ReferenceIdeal.gather_S1x8192x32x21x21_S8192x32x21x1x1_S1x8192x32x21x1_0_4_123_012_4_4_11111 x idx (ix5 0 n k c 0)
      = x (ix5 0 n k c (clampTo 21 (by decide) (idx (ix5 n k c 0 0)))) := by
  have hob0 : (0 : Fin 5) ∉ Cert.ReferenceIdeal.gather_S1x8192x32x21x21_S8192x32x21x1x1_S1x8192x32x21x1_0_4_123_012_4_4_11111.operandBatchingDims :=
    show (0 : Fin 5) ∉ ([1, 2, 3] : List (Fin 5)) from by decide
  have hob1 : (1 : Fin 5) ∈ Cert.ReferenceIdeal.gather_S1x8192x32x21x21_S8192x32x21x1x1_S1x8192x32x21x1_0_4_123_012_4_4_11111.operandBatchingDims :=
    show (1 : Fin 5) ∈ ([1, 2, 3] : List (Fin 5)) from by decide
  have hob2 : (2 : Fin 5) ∈ Cert.ReferenceIdeal.gather_S1x8192x32x21x21_S8192x32x21x1x1_S1x8192x32x21x1_0_4_123_012_4_4_11111.operandBatchingDims :=
    show (2 : Fin 5) ∈ ([1, 2, 3] : List (Fin 5)) from by decide
  have hob3 : (3 : Fin 5) ∈ Cert.ReferenceIdeal.gather_S1x8192x32x21x21_S8192x32x21x1x1_S1x8192x32x21x1_0_4_123_012_4_4_11111.operandBatchingDims :=
    show (3 : Fin 5) ∈ ([1, 2, 3] : List (Fin 5)) from by decide
  have hob4 : (4 : Fin 5) ∉ Cert.ReferenceIdeal.gather_S1x8192x32x21x21_S8192x32x21x1x1_S1x8192x32x21x1_0_4_123_012_4_4_11111.operandBatchingDims :=
    show (4 : Fin 5) ∉ ([1, 2, 3] : List (Fin 5)) from by decide
  have hcol0 : (0 : Fin 5) ∉ Cert.ReferenceIdeal.gather_S1x8192x32x21x21_S8192x32x21x1x1_S1x8192x32x21x1_0_4_123_012_4_4_11111.collapsedSliceDims :=
    show (0 : Fin 5) ∉ ([4] : List (Fin 5)) from by decide
  have hcol4 : (4 : Fin 5) ∈ Cert.ReferenceIdeal.gather_S1x8192x32x21x21_S8192x32x21x1x1_S1x8192x32x21x1_0_4_123_012_4_4_11111.collapsedSliceDims :=
    show (4 : Fin 5) ∈ ([4] : List (Fin 5)) from by decide
  have hsim0 : (0 : Fin 5) ∉ Cert.ReferenceIdeal.gather_S1x8192x32x21x21_S8192x32x21x1x1_S1x8192x32x21x1_0_4_123_012_4_4_11111.startIndexMap :=
    show (0 : Fin 5) ∉ ([4] : List (Fin 5)) from by decide
  have hsim4 : (4 : Fin 5) ∈ Cert.ReferenceIdeal.gather_S1x8192x32x21x21_S8192x32x21x1x1_S1x8192x32x21x1_0_4_123_012_4_4_11111.startIndexMap :=
    show (4 : Fin 5) ∈ ([4] : List (Fin 5)) from by decide
  unfold Host.gather
  congr 1
  funext a
  refine Fin.ext ?_
  match a with
  | ⟨0, _⟩ =>
    -- the offset axis has extent one: start 0, no batching part, and an offset below the slice size 1
    show GatherDims.start _ _ idx 0 + GatherDims.batchCoord _ _ 0 + GatherDims.offCoord _ _ 0 = 0
    have hoff := GatherDims.offCoord_lt Cert.ReferenceIdeal.gather_S1x8192x32x21x21_S8192x32x21x1x1_S1x8192x32x21x1_0_4_123_012_4_4_11111
      (ix5 0 n k c 0) 0 ((GatherDims.mem_sKept _ _).mpr ⟨hcol0, hob0⟩)
    have hsl : Cert.ReferenceIdeal.gather_S1x8192x32x21x21_S8192x32x21x1x1_S1x8192x32x21x1_0_4_123_012_4_4_11111.sliceSizes 0 = 1 := rfl
    rw [GatherDims.batchCoord_eq_zero _ _ _ hob0]
    unfold GatherDims.start
    rw [dif_neg hsim0]
    omega
  | ⟨1, _⟩ =>
    -- a batching axis carries the result's matching coordinate over: start 0, no offset part
    show GatherDims.start _ _ idx 1 + GatherDims.batchCoord _ _ 1 + GatherDims.offCoord _ _ 1 = n.val
    rw [GatherDims.start_batching _ _ _ _ hob1,
      GatherDims.offCoord_eq_zero _ _ _ (fun h => ((GatherDims.mem_sKept _ _).mp h).2 hob1)]
    simp only [Nat.add_zero, Nat.zero_add]
    unfold GatherDims.batchCoord
    rw [dif_pos hob1]
    rfl
  | ⟨2, _⟩ =>
    show GatherDims.start _ _ idx 2 + GatherDims.batchCoord _ _ 2 + GatherDims.offCoord _ _ 2 = k.val
    rw [GatherDims.start_batching _ _ _ _ hob2,
      GatherDims.offCoord_eq_zero _ _ _ (fun h => ((GatherDims.mem_sKept _ _).mp h).2 hob2)]
    simp only [Nat.add_zero, Nat.zero_add]
    unfold GatherDims.batchCoord
    rw [dif_pos hob2]
    rfl
  | ⟨3, _⟩ =>
    show GatherDims.start _ _ idx 3 + GatherDims.batchCoord _ _ 3 + GatherDims.offCoord _ _ 3 = c.val
    rw [GatherDims.start_batching _ _ _ _ hob3,
      GatherDims.offCoord_eq_zero _ _ _ (fun h => ((GatherDims.mem_sKept _ _).mp h).2 hob3)]
    simp only [Nat.add_zero, Nat.zero_add]
    unfold GatherDims.batchCoord
    rw [dif_pos hob3]
    rfl
  | ⟨4, _⟩ =>
    show GatherDims.start _ _ idx 4 + GatherDims.batchCoord _ _ 4 + GatherDims.offCoord _ _ 4 = _
    rw [GatherDims.batchCoord_eq_zero _ _ _ hob4,
      GatherDims.offCoord_eq_zero _ _ _ (fun h => ((GatherDims.mem_sKept _ _).mp h).1 hcol4)]
    simp only [Nat.add_zero]
    unfold GatherDims.start
    rw [dif_pos hsim4]
    have hsi : Cert.ReferenceIdeal.gather_S1x8192x32x21x21_S8192x32x21x1x1_S1x8192x32x21x1_0_4_123_012_4_4_11111.siIdx (ix5 0 n k c 0)
        ⟨List.idxOf (4 : Fin 5) Cert.ReferenceIdeal.gather_S1x8192x32x21x21_S8192x32x21x1x1_S1x8192x32x21x1_0_4_123_012_4_4_11111.startIndexMap,
          List.idxOf_lt_length_iff.2 hsim4⟩ = ix5 n k c 0 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl

/-- `take_along_axis` of a [1, 8192, 21] array along its last axis, one entry per site. -/
theorem ref_take_row {α : Type} (x : Cert.ReferenceIdeal.S1x8192x21.Idx → α) (idx : IVec Cert.ReferenceIdeal.S8192x1x1 32) (n : Fin 8192) :
    Host.gather Cert.ReferenceIdeal.gather_S1x8192x21_S8192x1x1_S1x8192x1_0_2_1_0_2_2_111 x idx (ix3 0 n 0)
      = x (ix3 0 n (clampTo 21 (by decide) (idx (ix3 n 0 0)))) := by
  have hob0 : (0 : Fin 3) ∉ Cert.ReferenceIdeal.gather_S1x8192x21_S8192x1x1_S1x8192x1_0_2_1_0_2_2_111.operandBatchingDims :=
    show (0 : Fin 3) ∉ ([1] : List (Fin 3)) from by decide
  have hob1 : (1 : Fin 3) ∈ Cert.ReferenceIdeal.gather_S1x8192x21_S8192x1x1_S1x8192x1_0_2_1_0_2_2_111.operandBatchingDims :=
    show (1 : Fin 3) ∈ ([1] : List (Fin 3)) from by decide
  have hob2 : (2 : Fin 3) ∉ Cert.ReferenceIdeal.gather_S1x8192x21_S8192x1x1_S1x8192x1_0_2_1_0_2_2_111.operandBatchingDims :=
    show (2 : Fin 3) ∉ ([1] : List (Fin 3)) from by decide
  have hcol0 : (0 : Fin 3) ∉ Cert.ReferenceIdeal.gather_S1x8192x21_S8192x1x1_S1x8192x1_0_2_1_0_2_2_111.collapsedSliceDims :=
    show (0 : Fin 3) ∉ ([2] : List (Fin 3)) from by decide
  have hcol2 : (2 : Fin 3) ∈ Cert.ReferenceIdeal.gather_S1x8192x21_S8192x1x1_S1x8192x1_0_2_1_0_2_2_111.collapsedSliceDims :=
    show (2 : Fin 3) ∈ ([2] : List (Fin 3)) from by decide
  have hsim0 : (0 : Fin 3) ∉ Cert.ReferenceIdeal.gather_S1x8192x21_S8192x1x1_S1x8192x1_0_2_1_0_2_2_111.startIndexMap :=
    show (0 : Fin 3) ∉ ([2] : List (Fin 3)) from by decide
  have hsim2 : (2 : Fin 3) ∈ Cert.ReferenceIdeal.gather_S1x8192x21_S8192x1x1_S1x8192x1_0_2_1_0_2_2_111.startIndexMap :=
    show (2 : Fin 3) ∈ ([2] : List (Fin 3)) from by decide
  unfold Host.gather
  congr 1
  funext a
  refine Fin.ext ?_
  match a with
  | ⟨0, _⟩ =>
    -- the offset axis has extent one: start 0, no batching part, and an offset below the slice size 1
    show GatherDims.start _ _ idx 0 + GatherDims.batchCoord _ _ 0 + GatherDims.offCoord _ _ 0 = 0
    have hoff := GatherDims.offCoord_lt Cert.ReferenceIdeal.gather_S1x8192x21_S8192x1x1_S1x8192x1_0_2_1_0_2_2_111
      (ix3 0 n 0) 0 ((GatherDims.mem_sKept _ _).mpr ⟨hcol0, hob0⟩)
    have hsl : Cert.ReferenceIdeal.gather_S1x8192x21_S8192x1x1_S1x8192x1_0_2_1_0_2_2_111.sliceSizes 0 = 1 := rfl
    rw [GatherDims.batchCoord_eq_zero _ _ _ hob0]
    unfold GatherDims.start
    rw [dif_neg hsim0]
    omega
  | ⟨1, _⟩ =>
    -- the batching axis carries the result's site over: start 0, no offset part
    show GatherDims.start _ _ idx 1 + GatherDims.batchCoord _ _ 1 + GatherDims.offCoord _ _ 1 = n.val
    rw [GatherDims.start_batching _ _ _ _ hob1,
      GatherDims.offCoord_eq_zero _ _ _ (fun h => ((GatherDims.mem_sKept _ _).mp h).2 hob1)]
    simp only [Nat.add_zero, Nat.zero_add]
    unfold GatherDims.batchCoord
    rw [dif_pos hob1]
    rfl
  | ⟨2, _⟩ =>
    show GatherDims.start _ _ idx 2 + GatherDims.batchCoord _ _ 2 + GatherDims.offCoord _ _ 2 = _
    rw [GatherDims.batchCoord_eq_zero _ _ _ hob2,
      GatherDims.offCoord_eq_zero _ _ _ (fun h => ((GatherDims.mem_sKept _ _).mp h).1 hcol2)]
    simp only [Nat.add_zero]
    unfold GatherDims.start
    rw [dif_pos hsim2]
    have hsi : Cert.ReferenceIdeal.gather_S1x8192x21_S8192x1x1_S1x8192x1_0_2_1_0_2_2_111.siIdx (ix3 0 n 0)
        ⟨List.idxOf (2 : Fin 3) Cert.ReferenceIdeal.gather_S1x8192x21_S8192x1x1_S1x8192x1_0_2_1_0_2_2_111.startIndexMap,
          List.idxOf_lt_length_iff.2 hsim2⟩ = ix3 n 0 0 := by
      funext b; refine Fin.ext ?_
      match b with
      | ⟨0, _⟩ => rfl
      | ⟨1, _⟩ => rfl
      | ⟨2, _⟩ => rfl
    rw [hsi]
    rfl

end Reference

end Cert.Potts

end
-- ==== Proof.KHostPre.lean ====
/-
  What the region finds in its four input arrays and in the flattened state vector, as functions of the argument arrays:
  the couplings and the weights re-laid without their leading unit axis, the field times the site mask, and, for
  neighbour positions in range, the neighbours' state words.
-/
import proofs.«426380_j2448131358775_1_alg».proof.Proof.KArgs
import proofs.«426380_j2448131358775_1_alg».proof.Proof.Words
import proofs.«426380_j2448131358775_1_alg».proof.Proof.GatherReads
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Potts

open Cert.KernelIdeal Cert.KernelIdeal.Gen Cert.KernelIdeal.GenP Cert.Potts Idealize.ShloMosaic Idealize.ShloMosaic.TcCoe
  Idealize.ShloMosaic.ValueIdx Idealize.SL.Sem

variable (m : (ℓ : Loc nD τ sig) → Buf (Elt Ideal) ℓ)

/-- Prepending the unit coordinate to a one-coordinate index. -/
private theorem cons_zero_ix1 {n : Nat} (i : (⟨1, ![n]⟩ : Shape).Idx) :
    (Fin.cons (⟨0, Nat.one_pos⟩ : Fin 1) i : (⟨2, ![1, n]⟩ : Shape).Idx) = ix2 0 (i 0) := by
  funext d; match d with | ⟨0, _⟩ => rfl | ⟨1, _⟩ => rfl

/-- Prepending the unit coordinate to a two-coordinate index. -/
private theorem cons_zero_ix2 {n0 n1 : Nat} (i : (⟨2, ![n0, n1]⟩ : Shape).Idx) :
    (Fin.cons (⟨0, Nat.one_pos⟩ : Fin 1) i : (⟨3, ![1, n0, n1]⟩ : Shape).Idx) = ix3 0 (i 0) (i 1) := by
  funext d; match d with | ⟨0, _⟩ => rfl | ⟨1, _⟩ => rfl | ⟨2, _⟩ => rfl

/-- Prepending the unit coordinate to a four-coordinate index. -/
private theorem cons_zero_ix4 {n0 n1 n2 n3 : Nat} (i : (⟨4, ![n0, n1, n2, n3]⟩ : Shape).Idx) :
    (Fin.cons (⟨0, Nat.one_pos⟩ : Fin 1) i : (⟨5, ![1, n0, n1, n2, n3]⟩ : Shape).Idx) = ix5 0 (i 0) (i 1) (i 2) (i 3) := by
  funext d; match d with | ⟨0, _⟩ => rfl | ⟨1, _⟩ => rfl | ⟨2, _⟩ => rfl | ⟨3, _⟩ => rfl | ⟨4, _⟩ => rfl

/-- The flattened states. -/
theorem V_S0 (c : Dev nD) : (V m c main_v0 : S8192.Idx → BitVec 32) = fun i => aS m c (ix2 0 (i 0)) := by
  have e : (V m c main_v0 : S8192.Idx → BitVec 32) = shapeCast S8192 (aS m c) shapeCasts_S1x8192_S8192 := by
    dsimp only [V, V0]
    simp only [hostOps0, hostOps0_1, hostOps0_2, List.flatten_cons, List.flatten_nil, List.append_nil, List.cons_append,
      List.nil_append]
    after_results
    rfl
  rw [e]
  funext i
  rw [shapeCast_dropUnit_apply]
  exact congrArg (aS m c) (cons_zero_ix1 i)

/-- The masked field. -/
theorem V_h0 (c : Dev nD) : (V m c main_v4 : S8192x21.Idx → EReal) = fun i => hm (aH m c) (aMi m c) (i 0) (i 1) := by
  have e : (V m c main_v4 : S8192x21.Idx → EReal) =
      shapeCast S8192x21
        (mulf (F := Ideal) (s := S1x8192x21) (φ := .f32) (aH m c)
          (broadcastInDim S1x8192x21 ![0, 1, 2] bcast_S1x8192x1_S1x8192x21_0_1_2
            (broadcastInDim S1x8192x1 ![0, 1] bcast_S1x8192_S1x8192x1_0_1 (aMi m c))))
        shapeCasts_S1x8192x21_S8192x21 := by
    dsimp only [V, V0]
    simp only [hostOps0, hostOps0_1, hostOps0_2, List.flatten_cons, List.flatten_nil, List.append_nil, List.cons_append,
      List.nil_append]
    after_results
    rfl
  rw [e]
  funext i
  rw [shapeCast_dropUnit_apply, mulf_apply]
  unfold hm
  congr 1
  · exact congrArg (aH m c) (cons_zero_ix2 i)
  · refine (broadcastInDim_apply _ _ _ _ (ix3 0 (i 0) 0) ?_).trans ?_
    · intro a; match a with | ⟨0, _⟩ => rfl | ⟨1, _⟩ => rfl | ⟨2, _⟩ => rfl
    · refine (broadcastInDim_apply _ _ _ _ (ix2 0 (i 0)) ?_)
      intro a; match a with | ⟨0, _⟩ => rfl | ⟨1, _⟩ => rfl

/-- The couplings. -/
theorem V_J0 (c : Dev nD) : (V m c main_v5 : S8192x32x21x21.Idx → EReal) = fun i => aJ m c (ix5 0 (i 0) (i 1) (i 2) (i 3)) := by
  have e : (V m c main_v5 : S8192x32x21x21.Idx → EReal) =
      shapeCast S8192x32x21x21 (aJ m c) shapeCasts_S1x8192x32x21x21_S8192x32x21x21 := by
    dsimp only [V, V0]
    simp only [hostOps0, hostOps0_1, hostOps0_2, List.flatten_cons, List.flatten_nil, List.append_nil, List.cons_append,
      List.nil_append]
    after_results
    rfl
  rw [e]
  funext i
  rw [shapeCast_dropUnit_apply]
  exact congrArg (aJ m c) (cons_zero_ix4 i)

/-- The neighbour weights. -/
theorem V_mij0 (c : Dev nD) : (V m c main_v6 : S8192x32.Idx → EReal) = fun i => aMij m c (ix3 0 (i 0) (i 1)) := by
  have e : (V m c main_v6 : S8192x32.Idx → EReal) = shapeCast S8192x32 (aMij m c) shapeCasts_S1x8192x32_S8192x32 := by
    dsimp only [V, V0]
    simp only [hostOps0, hostOps0_1, hostOps0_2, List.flatten_cons, List.flatten_nil, List.append_nil, List.cons_append,
      List.nil_append]
    after_results
    rfl
  rw [e]
  funext i
  rw [shapeCast_dropUnit_apply]
  exact congrArg (aMij m c) (cons_zero_ix2 i)

section Take
variable (S : ShS.Idx → BitVec 32) (E : ShE.Idx → BitVec 32)

/-- The neighbour positions, site after site, in one row of 262144 words. -/
private def posFlat : IVec S262144 32 :=
  shapeCast S262144 (shapeCast S8192x32 E shapeCasts_S1x8192x32_S8192x32) shapeCasts_S8192x32_S262144

/-- A negative position moved up by the axis length, as taking in fill mode does first. -/
private def posNorm : IVec S262144 32 :=
  select (cmpi .slt (posFlat E) (broadcastInDim S262144 ![] bcast_S_S262144 (constantI S_ 32 0#32)))
    (addi (posFlat E) (broadcastInDim S262144 ![] bcast_S_S262144 (constantI S_ 32 8192#32))) (posFlat E)

/-- The positions as a column of start indices. -/
private def posCol : IVec S262144x1 32 := broadcastInDim S262144x1 ![0] bcast_S262144_S262144x1_0 (posNorm E)

/-- Whether each position lies on the axis. -/
private def posValid : IVec S262144 1 :=
  Host.reduce IntOp.andi
    (andi (cmpi .sge (posCol E) (broadcastInDim S262144x1 ![] bcast_S_S262144x1 (constantI S_ 32 0#32)))
      (cmpi .sle (posCol E)
        (broadcastInDim S262144x1 ![0, 1] bcast_S1x1_S262144x1_0_1
          (broadcastInDim S1x1 ![1] bcast_S1_S1x1_1 (constantI S1 32 8191#32)))))
    (constantI S_ 1 1#1) reducesTo_S262144x1_S262144_d1 h_S_

/-- The states taken at the positions, with the fill word where a position is off the axis. -/
private def taken : IVec S262144 32 :=
  select (posValid E)
    (Host.gather gather_S8192_S262144x1_S262144_n_0_n_n_0_1_1 (shapeCast S8192 S shapeCasts_S1x8192_S8192) (posCol E))
    (broadcastInDim S262144 ![] bcast_S_S262144 (constantI S_ 32 2147483648#32))

/-- Neighbour `k` of site `n` sits at place `32 n + k` of the row. -/
private theorem posFlat_apply (n : Fin 8192) (k : Fin 32) (p : Fin 262144) (hp : p.val = 32 * n.val + k.val) :
    posFlat E (ix1 p) = E (ix3 0 n k) := by
  unfold posFlat
  rw [shapeCast_apply _ _ (ix1 p) (ix2 n k) (by
    rw [Shape.rowMajor_val_two, Shape.rowMajor_val_one]
    show n.val * 32 + k.val = p.val
    omega)]
  rw [shapeCast_dropUnit_apply]
  exact congrArg E (cons_zero_ix2 (ix2 n k))

/-- A position that is not negative is left as it is. -/
private theorem posNorm_apply (p : S262144.Idx) (h0 : 0 ≤ (posFlat E p).toInt) : posNorm E p = posFlat E p := by
  have hb0 : broadcastInDim S262144 ![] bcast_S_S262144 (constantI S_ 32 0#32) p = 0#32 :=
    StableHlo.Predicate.bcast_scalar _ h_S_ _ _
  have hbN : broadcastInDim S262144 ![] bcast_S_S262144 (constantI S_ 32 8192#32) p = 8192#32 :=
    StableHlo.Predicate.bcast_scalar _ h_S_ _ _
  show Scalar.select
      (IntOp.cmpi .slt (posFlat E p) (broadcastInDim S262144 ![] bcast_S_S262144 (constantI S_ 32 0#32) p))
      (IntOp.addi (posFlat E p) (broadcastInDim S262144 ![] bcast_S_S262144 (constantI S_ 32 8192#32) p))
      (posFlat E p) = posFlat E p
  rw [hb0, hbN]
  exact select_norm_of_nonneg _ _ h0

/-- The column of start indices reads the row. -/
private theorem posCol_apply (p : Fin 262144) : posCol E (ix2 p 0) = posNorm E (ix1 p) := by
  unfold posCol
  refine broadcastInDim_apply _ _ _ (ix2 p 0) (ix1 p) ?_
  intro a; match a with | ⟨0, _⟩ => rfl

/-- A conjunction over one element, from an initial word, is that element and the initial word. -/
private theorem fold_andi_fin1 (b : BitVec 1) (f : Fin 1 → BitVec 1) :
    (Finset.univ : Finset (Fin 1)).fold IntOp.andi b f = IntOp.andi (f 0) b := by
  rw [Finset.univ_unique, Finset.fold_singleton]
  rfl

/-- A position on the axis is found valid: the conjunction over the one start coordinate, from true, of the two bounds. -/
private theorem posValid_apply (p : Fin 262144) (h0 : 0 ≤ (posCol E (ix2 p 0)).toInt) (h1 : (posCol E (ix2 p 0)).toInt < 8192) :
    posValid E (ix1 p) = 1#1 := by
  have hr : S262144x1.Reduces [1] S262144 := by decide
  have hl : hr.lift (ix1 p) (0 : Fin 1) = ix2 p 0 := by
    funext d; match d with | ⟨0, _⟩ => rfl | ⟨1, _⟩ => rfl
  have hb0 : broadcastInDim S262144x1 ![] bcast_S_S262144x1 (constantI S_ 32 0#32) (ix2 p 0) = 0#32 :=
    StableHlo.Predicate.bcast_scalar _ h_S_ _ _
  have hbN : broadcastInDim S262144x1 ![0, 1] bcast_S1x1_S262144x1_0_1
      (broadcastInDim S1x1 ![1] bcast_S1_S1x1_1 (constantI S1 32 8191#32)) (ix2 p 0) = 8191#32 := by
    refine (broadcastInDim_apply _ _ _ (ix2 p 0) (ix2 0 0) ?_).trans ?_
    · intro a; match a with | ⟨0, _⟩ => rfl | ⟨1, _⟩ => rfl
    · refine (broadcastInDim_apply _ _ _ (ix2 0 0) (ix1 0) ?_).trans rfl
      intro a; match a with | ⟨0, _⟩ => rfl
  have hv : IntOp.andi (IntOp.cmpi .sge (posCol E (ix2 p 0)) 0#32) (IntOp.cmpi .sle (posCol E (ix2 p 0)) 8191#32) = 1#1 :=
    valid_of_inRange _ 8192 (by decide) (by decide) h0 h1
  unfold posValid
  rw [Host.reduce_eq_fold_single IntOp.andi _ _ reducesTo_S262144x1_S262144_d1 hr h_S_]
  refine (fold_andi_fin1 _ _).trans ?_
  show IntOp.andi
      (IntOp.andi
        (IntOp.cmpi .sge (posCol E (hr.lift (ix1 p) (0 : Fin 1)))
          (broadcastInDim S262144x1 ![] bcast_S_S262144x1 (constantI S_ 32 0#32) (hr.lift (ix1 p) (0 : Fin 1))))
        (IntOp.cmpi .sle (posCol E (hr.lift (ix1 p) (0 : Fin 1)))
          (broadcastInDim S262144x1 ![0, 1] bcast_S1x1_S262144x1_0_1
            (broadcastInDim S1x1 ![1] bcast_S1_S1x1_1 (constantI S1 32 8191#32)) (hr.lift (ix1 p) (0 : Fin 1)))))
      1#1 = 1#1
  rw [hl, hb0, hbN, hv]
  rfl

/-- With every position on the axis, place `32 n + k` of the taken row is the state word of neighbour `k` of site `n`. -/
private theorem taken_apply (hE : InRange 8192 E) (n : Fin 8192) (k : Fin 32) (p : Fin 262144) (hp : p.val = 32 * n.val + k.val) :
    taken S E (ix1 p) = nbWord S E n k := by
  have hflat : posFlat E (ix1 p) = E (ix3 0 n k) := posFlat_apply E n k p hp
  have hnorm : posNorm E (ix1 p) = E (ix3 0 n k) := by
    rw [posNorm_apply E (ix1 p) (by rw [hflat]; exact (hE _).1), hflat]
  have hcol : posCol E (ix2 p 0) = E (ix3 0 n k) := by rw [posCol_apply, hnorm]
  have hval : posValid E (ix1 p) = 1#1 :=
    posValid_apply E p (by rw [hcol]; exact (hE _).1) (by rw [hcol]; exact (hE _).2)
  unfold taken
  rw [select_apply, hval, select_one, take_S0, hcol, shapeCast_dropUnit_apply]
  exact congrArg S (cons_zero_ix1 _)

end Take

set_option maxRecDepth 4096 in
set_option maxHeartbeats 1000000 in
/-- The buffer of neighbour words as the host operations compose it from the states and the positions. -/
private theorem V_sj_term (c : Dev nD) :
    (V m c main_v10 : S8192x32.Idx → BitVec 32) =
      shapeCast S8192x32 (taken (aS m c) (aE m c)) shapeCasts_S262144_S8192x32 := by
  unfold taken posValid posCol posNorm posFlat
  dsimp only [V, V0]
  simp only [hostOps0, hostOps0_1, hostOps0_2, List.flatten_cons, List.flatten_nil, List.append_nil, List.cons_append,
    List.nil_append]
  after_results_simp
  simp only [StableHlo.TRef.ofBuf, StableHlo.TRef.toBuf, cast_cast, cast_eq]
  rfl

/-- The neighbours' state words, when every neighbour position is in range. -/
theorem V_sj (c : Dev nD) (hE : InRange 8192 (aE m c)) :
    (V m c main_v10 : S8192x32.Idx → BitVec 32) = fun i => nbWord (aS m c) (aE m c) (i 0) (i 1) := by
  rw [V_sj_term]
  funext i
  have h0 := idx2_lt0 i
  have h1 := idx2_lt1 i
  have hlt : 32 * (i 0).val + (i 1).val < 262144 := by omega
  rw [shapeCast_apply _ _ i (ix1 ⟨32 * (i 0).val + (i 1).val, hlt⟩) (by
    rw [Shape.rowMajor_val_one, Shape.rowMajor_val_two]
    show 32 * (i 0).val + (i 1).val = (i 0).val * 32 + (i 1).val
    omega)]
  exact taken_apply (aS m c) (aE m c) hE (i 0) (i 1) _ rfl

end Cert.KernelIdeal.Potts

end
-- ==== Proof.KBlocks.lean ====
/-
  From blocks to the array: grid point `t` of 64 writes rows `128 t … 128 t + 127` of the [8192, 21] result, each block the
  body's stored value of that point's input blocks, so the array after the region is the energy rows of all sites.
-/
import proofs.«426380_j2448131358775_1_alg».proof.Proof.KArgs
import proofs.«426380_j2448131358775_1_alg».proof.Proof.KPayload
import proofs.«426380_j2448131358775_1_alg».proof.Proof.KHostPre
import Idealize.ShloMosaic.Lib.Pipeline.Value

noncomputable section

namespace Cert.KernelIdeal.Potts

open Cert.KernelIdeal Cert.KernelIdeal.Gen Cert.KernelIdeal.GenP Cert.Potts Idealize.ShloMosaic Idealize.ShloMosaic.TcCoe
  Idealize.ShloMosaic.ValueIdx Idealize.SL.Sem

variable (m : (ℓ : Loc nD τ sig) → Buf (Elt Ideal) ℓ)

namespace Blocks

/-! ## The body's stored block -/

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The body loads its four blocks whole and stores one whole block: what it leaves is its payload of the four. -/
theorem out_eq_pay (x0 : Vec Ideal S128x32x21x21 .f32) (x1 : Vec Ideal S128x32 .i32) (x2 : Vec Ideal S128x32 .f32)
    (x3 : Vec Ideal S128x21 .f32) : out0_4 x0 x1 x2 x3 = k0_pay1 x0 x1 x2 x3 := by
  unfold out0_4
  rw [View.canon_unit_zero zero2]
  simp only [View.ld_unit_zero (S := S128x32x21x21) zero4, View.ld_unit_zero (S := S128x32) zero2,
    View.ld_unit_zero (S := S128x21) zero2]

/-- Row `r`, state `c` of the payload is the energy entry of site `n` once row `r` of each block is site `n`'s row of
    the couplings, neighbour states, weights and masked field. -/
theorem point_Ui (v0 : Vec Ideal S128x32x21x21 .f32) (v2 : Vec Ideal S128x32 .i32) (v4 : Vec Ideal S128x32 .f32)
    (v6 : Vec Ideal S128x21 .f32)
    (S : ShS.Idx → BitVec 32) (h : ShH.Idx → EReal) (J : ShJ.Idx → EReal) (E : ShE.Idx → BitVec 32)
    (mi : ShS.Idx → EReal) (mij : ShE.Idx → EReal) (hS : InRange 21 S)
    (n : Fin 8192) (r : Fin 128) (c : Fin 21)
    (h0 : ∀ (k : Fin 32) (d : Fin 21), v0 (ix4 r k c d) = J (ix5 0 n k c d))
    (h2 : ∀ k : Fin 32, v2 (ix2 r k) = nbWord S E n k)
    (h4 : ∀ k : Fin 32, v4 (ix2 r k) = mij (ix3 0 n k))
    (h6 : v6 (ix2 r c) = hm h mi n c) :
    k0_pay1 (F := Ideal) v0 v2 v4 v6 (ix2 r c) = Ui S h J E mi mij n c := by
  have hv2 : ∀ k : Fin 32, 0 ≤ (v2 (ix2 r k)).toInt ∧ (v2 (ix2 r k)).toInt < 21 := fun k => by
    rw [h2]
    have := hS (ix2 0 (nbPos E n k))
    unfold nbWord
    constructor <;> omega
  rw [pay_apply v0 v2 v4 v6 r c hv2, h6]
  unfold Ui Ji
  congr 1
  refine Finset.sum_congr rfl fun k _ => ?_
  rw [h0, h2, h4]

/-! ## Where the blocks sit -/

/-- The windows' index maps over the grid: every window's block index at point `t` is `t` along the sites and `0` along
    every other axis. -/
theorem blk_index : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of the coupling block at point `t` is site `128 t + r`'s coupling matrices. -/
theorem iblk0_apply (c : Dev nD) (t : Fin cfg0.N) (r : Fin 128) (k : Fin 32) (a : Fin 21) (d : Fin 21) (n : Fin 8192)
    (hn : n.val = 128 * t.val + r.val) :
    (iblk m c 0 t : Vec Ideal S128x32x21x21 .f32) (ix4 r k a d) = aJ m c (ix5 0 n k a d) := by
  obtain ⟨e0, e1, e2, e3, -⟩ := blk_index t
  refine Eq.trans ?_ (congrFun (V_J0 m c) (ix4 n k a d))
  unfold iblk
  rw [View.read_apply]
  show V m c main_v5 _ = V m c main_v5 _
  congr 1
  funext b
  apply Fin.ext
  match b with
  | ⟨0, _⟩ => show win0_0.index t (0 : Fin 4) * 128 + 1 * r.val = n.val; rw [e0, hn]; omega
  | ⟨1, _⟩ => show win0_0.index t (1 : Fin 4) * 32 + 1 * k.val = k.val; rw [e1]; omega
  | ⟨2, _⟩ => show win0_0.index t (2 : Fin 4) * 21 + 1 * a.val = a.val; rw [e2]; omega
  | ⟨3, _⟩ => show win0_0.index t (3 : Fin 4) * 21 + 1 * d.val = d.val; rw [e3]; omega

/-- Row `r` of the neighbour-state block at point `t` is site `128 t + r`'s neighbours' state words. -/
theorem iblk1_apply (c : Dev nD) (hE : InRange 8192 (aE m c)) (t : Fin cfg0.N) (r : Fin 128) (k : Fin 32) (n : Fin 8192)
    (hn : n.val = 128 * t.val + r.val) :
    (iblk m c 1 t : Vec Ideal S128x32 .i32) (ix2 r k) = nbWord (aS m c) (aE m c) n k := by
  obtain ⟨-, -, -, -, e0, e1, -⟩ := blk_index t
  refine Eq.trans ?_ (congrFun (V_sj m c hE) (ix2 n k))
  unfold iblk
  rw [View.read_apply]
  show V m c main_v10 _ = V m c main_v10 _
  congr 1
  funext b
  apply Fin.ext
  match b with
  | ⟨0, _⟩ => show win0_1.index t (0 : Fin 2) * 128 + 1 * r.val = n.val; rw [e0, hn]; omega
  | ⟨1, _⟩ => show win0_1.index t (1 : Fin 2) * 32 + 1 * k.val = k.val; rw [e1]; omega

/-- Row `r` of the weight block at point `t` is site `128 t + r`'s neighbour weights. -/
theorem iblk2_apply (c : Dev nD) (t : Fin cfg0.N) (r : Fin 128) (k : Fin 32) (n : Fin 8192)
    (hn : n.val = 128 * t.val + r.val) :
    (iblk m c 2 t : Vec Ideal S128x32 .f32) (ix2 r k) = aMij m c (ix3 0 n k) := by
  obtain ⟨-, -, -, -, -, -, e0, e1, -⟩ := blk_index t
  refine Eq.trans ?_ (congrFun (V_mij0 m c) (ix2 n k))
  unfold iblk
  rw [View.read_apply]
  show V m c main_v6 _ = V m c main_v6 _
  congr 1
  funext b
  apply Fin.ext
  match b with
  | ⟨0, _⟩ => show win0_2.index t (0 : Fin 2) * 128 + 1 * r.val = n.val; rw [e0, hn]; omega
  | ⟨1, _⟩ => show win0_2.index t (1 : Fin 2) * 32 + 1 * k.val = k.val; rw [e1]; omega

/-- Row `r` of the field block at point `t` is site `128 t + r`'s masked field row. -/
theorem iblk3_apply (c : Dev nD) (t : Fin cfg0.N) (r : Fin 128) (a : Fin 21) (n : Fin 8192)
    (hn : n.val = 128 * t.val + r.val) :
    (iblk m c 3 t : Vec Ideal S128x21 .f32) (ix2 r a) = hm (aH m c) (aMi m c) n a := by
  obtain ⟨-, -, -, -, -, -, -, -, e0, e1, -⟩ := blk_index t
  refine Eq.trans ?_ (congrFun (V_h0 m c) (ix2 n a))
  unfold iblk
  rw [View.read_apply]
  show V m c main_v4 _ = V m c main_v4 _
  congr 1
  funext b
  apply Fin.ext
  match b with
  | ⟨0, _⟩ => show win0_3.index t (0 : Fin 2) * 128 + 1 * r.val = n.val; rw [e0, hn]; omega
  | ⟨1, _⟩ => show win0_3.index t (1 : Fin 2) * 21 + 1 * a.val = a.val; rw [e1]; omega

/-! ## What each point writes back, and the whole array -/

/-- The energy rows of all sites, as an array over [8192, 21]. -/
abbrev rowsUi (c : Dev nD) : S8192x21.Idx → EReal :=
  fun i => Ui (aS m c) (aH m c) (aJ m c) (aE m c) (aMi m c) (aMij m c) (i 0) (i 1)

/-- Two 128 × 21 blocks are equal when they agree at every row and state. -/
theorem block_ext (f g : S128x21.Idx → EReal) (h : ∀ (r : Fin 128) (a : Fin 21), f (ix2 r a) = g (ix2 r a)) : f = g :=
  funext fun j => by rw [eq_ix2 j]; exact h _ _

/-- What point `t` writes back is block `t` of the energy rows. -/
theorem flushed_rows (c : Dev nD) (hS : InRange 21 (aS m c)) (hE : InRange 8192 (aE m c)) (t : Fin cfg0.N) :
    (dats m 0 c).flushed 4 t = ((cfg0.win 4).blk t).view.read (Elt Ideal) (rowsUi m c) := by
  show (cfg0.win 4).cut (grid0.coords t) ((dats m 0 c).after 4 t) = _
  rw [after0_4, out_eq_pay]
  refine block_ext _ _ fun r a => ?_
  have ht : t.val < 64 := lt_of_lt_of_eq t.isLt N_0
  obtain ⟨-, -, -, -, -, -, -, -, -, -, q0, q1⟩ := blk_index t
  have hn : 128 * t.val + r.val < 8192 := by omega
  have e0 : (((cfg0.win 4).blk t).view.emb (ix2 r a) 0 : Fin 8192) = (⟨128 * t.val + r.val, hn⟩ : Fin 8192) :=
    Fin.ext (show win0_4.index t (0 : Fin 2) * 128 + 1 * r.val = 128 * t.val + r.val by rw [q0]; omega)
  have e1 : (((cfg0.win 4).blk t).view.emb (ix2 r a) 1 : Fin 21) = a :=
    Fin.ext (show win0_4.index t (1 : Fin 2) * 21 + 1 * a.val = a.val by rw [q1]; omega)
  show k0_pay1 (F := Ideal) (iblk m c 0 t) (iblk m c 1 t) (iblk m c 2 t) (iblk m c 3 t) (ix2 r a)
    = Ui (aS m c) (aH m c) (aJ m c) (aE m c) (aMi m c) (aMij m c) (((cfg0.win 4).blk t).view.emb (ix2 r a) 0)
        (((cfg0.win 4).blk t).view.emb (ix2 r a) 1)
  rw [e0, e1]
  exact point_Ui _ _ _ _ (aS m c) (aH m c) (aJ m c) (aE m c) (aMi m c) (aMij m c) hS _ r a
    (fun k d => iblk0_apply m c t r k a d _ rfl) (fun k => iblk1_apply m c hE t r k _ rfl)
    (fun k => iblk2_apply m c t r k _ rfl) (iblk3_apply m c t r a _ rfl)

/-- An index of the array is in point `t`'s block iff each coordinate is in the block's range on its axis. -/
theorem mem_blk_rows (t : Fin cfg0.N) (i : S8192x21.Idx) :
    i ∈ ((cfg0.win 4).blk t).view.set ↔ ∀ a : Fin 2, win0_4.index t a * S128x21.size a ≤ (i a).val
      ∧ (i a).val < win0_4.index t a * S128x21.size a + S128x21.size a := by
  show i ∈ ((View.whole main_v11).slice (win0_4.rect t)).set ↔ _
  rw [View.set_slice_whole, Rect.mem_set_unit]
  exact Iff.rfl

/-- Row `n` of the array is written by point `n / 128`. -/
theorem cover_rows (i : S8192x21.Idx) :
    ∃ t : Fin cfg0.N, (cfg0.win 4).flush t = true ∧ i ∈ ((cfg0.win 4).blk t).view.set := by
  have hi0 : (i 0).val < 8192 := (i 0).isLt
  have hi1 : (i 1).val < 21 := (i 1).isLt
  have hN : (i 0).val / 128 < cfg0.N := lt_of_lt_of_eq (by omega) N_0.symm
  obtain ⟨-, -, -, -, -, -, -, -, -, -, q0, q1⟩ := blk_index ⟨(i 0).val / 128, hN⟩
  refine ⟨⟨(i 0).val / 128, hN⟩, flush0_4 _, ?_⟩
  rw [mem_blk_rows]
  intro a
  match a with
  | ⟨0, _⟩ =>
    show win0_4.index ⟨(i 0).val / 128, hN⟩ (0 : Fin 2) * 128 ≤ (i 0).val
      ∧ (i 0).val < win0_4.index ⟨(i 0).val / 128, hN⟩ (0 : Fin 2) * 128 + 128
    rw [q0]; show (i 0).val / 128 * 128 ≤ (i 0).val ∧ (i 0).val < (i 0).val / 128 * 128 + 128; omega
  | ⟨1, _⟩ =>
    show win0_4.index ⟨(i 0).val / 128, hN⟩ (1 : Fin 2) * 21 ≤ (i 1).val
      ∧ (i 1).val < win0_4.index ⟨(i 0).val / 128, hN⟩ (1 : Fin 2) * 21 + 21
    rw [q1]; omega

end Blocks

open Blocks in
/-- The result array after the region, for states and neighbour positions in range. -/
theorem final_Ui (c : Dev nD) (hS : InRange 21 (aS m c)) (hE : InRange 8192 (aE m c)) :
    ((dats m 0 c).arrAt 4 cfg0.N : S8192x21.Idx → EReal)
      = fun i => Ui (aS m c) (aH m c) (aJ m c) (aE m c) (aMi m c) (aMij m c) (i 0) (i 1) :=
  (dats m 0 c).arrAt_eq_of_cover 4 (rowsUi m c) (fun t _ => flushed_rows m c hS hE t) cover_rows

end Cert.KernelIdeal.Potts

end
-- ==== Proof.KTail.lean ====
/-
  The host lines after the region, read back: the second result is the region's array under a leading unit axis; the first
  is, over the sites, the array's own-state entry less half of (that entry less the masked field's own-state entry).
-/
import proofs.«426380_j2448131358775_1_alg».proof.Proof.KArgs
import proofs.«426380_j2448131358775_1_alg».proof.Proof.KHostPre
import proofs.«426380_j2448131358775_1_alg».proof.Proof.Words
import proofs.«426380_j2448131358775_1_alg».proof.Proof.GatherReads
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.IdealHost

noncomputable section

namespace Cert.KernelIdeal.Potts

open Cert.KernelIdeal Cert.KernelIdeal.Gen Cert.KernelIdeal.GenP Cert.Potts Idealize.ShloMosaic Idealize.ShloMosaic.TcCoe
  Idealize.ShloMosaic.ValueIdx Idealize.SL.Sem

variable (m : (ℓ : Loc nD τ sig) → Buf (Elt Ideal) ℓ)

/-- The start indices of a fill-mode take along the second axis: the words, a negative one raised by 21, under two
    trailing unit axes. -/
abbrev startIdx (s : IVec S8192 32) : IVec S8192x1x1 32 := fun i =>
  shapeCast S8192x1x1
    (select
      (cmpi .slt (broadcastInDim S8192x1 ![0] Facts₀.bcast_S8192_S8192x1_0 s) (broadcastInDim S8192x1 ![] Facts₀.bcast_S_S8192x1 (constantI S_ 32 0#32)))
      (addi (broadcastInDim S8192x1 ![0] Facts₀.bcast_S8192_S8192x1_0 s) (broadcastInDim S8192x1 ![] Facts₀.bcast_S_S8192x1 (constantI S_ 32 21#32)))
      (broadcastInDim S8192x1 ![0] Facts₀.bcast_S8192_S8192x1_0 s))
    Facts₀.shapeCasts_S8192x1_S8192x1x1 i

/-- Which start indices lie in [0, 20]: the conjunction of the two comparisons, reduced by "and" over the last unit axis. -/
abbrev validIdx (s : IVec S8192 32) : IVec S8192x1 1 :=
  Host.reduce IntOp.andi
    (andi (cmpi .sge (startIdx s) (broadcastInDim S8192x1x1 ![] Facts₀.bcast_S_S8192x1x1 (constantI S_ 32 0#32)))
      (cmpi .sle (startIdx s)
        (broadcastInDim S8192x1x1 ![0, 1, 2] Facts₀.bcast_S1x1x1_S8192x1x1_0_1_2
          (broadcastInDim S1x1x1 ![2] Facts₀.bcast_S1_S1x1x1_2 (constantI S1 32 20#32)))))
    (constantI S_ 1 1#1) Facts₀.reducesTo_S8192x1x1_S8192x1_d2 Facts₀.h_S_

/-- The fill-mode take of one entry per row of a table with 21 columns, as a vector over the rows: the gathered entry
    where the index is valid, the fill pattern elsewhere. -/
abbrev fillTake (x : S8192x21.Idx → EReal) (s : IVec S8192 32) : S8192.Idx → EReal := fun i =>
  shapeCast S8192
    (select (validIdx s)
      (Host.gather gather_S8192x21_S8192x1x1_S8192x1_n_1_0_0_1_2_11 x (startIdx s))
      (broadcastInDim S8192x1 ![] Facts₀.bcast_S_S8192x1 (constant (F := Ideal) S_ .f32 0x7FC00000#32)))
    Facts₀.shapeCasts_S8192x1_S8192 i

/-- A word that is not negative is its own start index. -/
theorem startIdx_apply (s : IVec S8192 32) (n : Fin 8192) (h0 : 0 ≤ (s (ix1 n)).toInt) :
    startIdx s (ix3 n 0 0) = s (ix1 n) := by
  show shapeCast S8192x1x1 _ Facts₀.shapeCasts_S8192x1_S8192x1x1 (ix3 n 0 0) = _
  refine (shapeCast_apply _ _ (ix3 n 0 0) (ix2 n 0) ?_).trans ?_
  · rw [Shape.rowMajor_val_two, Shape.rowMajor_val_three]
    show n.val * 1 + 0 = (n.val * 1 + 0) * 1 + 0
    omega
  · have hb : broadcastInDim S8192x1 ![0] Facts₀.bcast_S8192_S8192x1_0 s (ix2 n 0) = s (ix1 n) :=
      broadcastInDim_apply _ _ s (ix2 n 0) (ix1 n) (fun a => match a with | ⟨0, _⟩ => rfl)
    show Scalar.select
        (IntOp.cmpi .slt (broadcastInDim S8192x1 ![0] Facts₀.bcast_S8192_S8192x1_0 s (ix2 n 0)) 0#32)
        (IntOp.addi (broadcastInDim S8192x1 ![0] Facts₀.bcast_S8192_S8192x1_0 s (ix2 n 0)) 21#32)
        (broadcastInDim S8192x1 ![0] Facts₀.bcast_S8192_S8192x1_0 s (ix2 n 0)) = _
    rw [hb]
    exact select_norm_of_nonneg _ _ h0

/-- A fold by "and" over the one coordinate of a unit axis is that one entry and the initial value. -/
theorem fold_andi_fin_one (b : BitVec 1) (f : Fin 1 → BitVec 1) :
    (Finset.univ : Finset (Fin 1)).fold IntOp.andi b f = IntOp.andi (f 0) b := by
  rw [show (Finset.univ : Finset (Fin 1)) = {0} from by decide, Finset.fold_singleton]

/-- A word in [0, 21) is a valid index. -/
theorem validIdx_apply (s : IVec S8192 32) (n : Fin 8192) (h0 : 0 ≤ (s (ix1 n)).toInt) (h1 : (s (ix1 n)).toInt < 21) :
    validIdx s (ix2 n 0) = 1#1 := by
  have hR : S8192x1x1.Reduces [2] S8192x1 := by decide
  refine (Host.reduce_eq_fold_single IntOp.andi _ _ Facts₀.reducesTo_S8192x1x1_S8192x1_d2 hR Facts₀.h_S_ (ix2 n 0)).trans ?_
  refine (fold_andi_fin_one _ _).trans ?_
  have hl : hR.lift (ix2 n 0) (0 : Fin 1) = ix3 n 0 0 := by
    funext a
    match a with
    | ⟨0, _⟩ => rfl
    | ⟨1, _⟩ => rfl
    | ⟨2, _⟩ => rfl
  show IntOp.andi (IntOp.andi (IntOp.cmpi .sge (startIdx s (hR.lift (ix2 n 0) (0 : Fin 1))) 0#32)
      (IntOp.cmpi .sle (startIdx s (hR.lift (ix2 n 0) (0 : Fin 1))) 20#32)) 1#1 = 1#1
  rw [hl, startIdx_apply s n h0, valid_of_inRange (s (ix1 n)) 21 (by decide) (by decide) h0 h1]
  decide

/-- So the take reads the table's entry in the word's column. -/
theorem fillTake_apply (x : S8192x21.Idx → EReal) (s : IVec S8192 32) (n : Fin 8192)
    (h0 : 0 ≤ (s (ix1 n)).toInt) (h1 : (s (ix1 n)).toInt < 21) :
    fillTake x s (ix1 n) = x (ix2 n (col (s (ix1 n)))) := by
  show shapeCast S8192 _ Facts₀.shapeCasts_S8192x1_S8192 (ix1 n) = _
  refine (shapeCast_apply _ _ (ix1 n) (ix2 n 0) ?_).trans ?_
  · rw [Shape.rowMajor_val_two, Shape.rowMajor_val_one]
    show n.val * 1 + 0 = n.val
    omega
  · rw [select_apply, validIdx_apply s n h0 h1, select_one, take_row, startIdx_apply s n h0]
    rfl

/-! ## The three buffers the lines after the region read -/

/-- The region's result array, as the region leaves it. -/
theorem tail_v11 (c : Dev nD) (A : S8192x21.Idx → EReal) (hA : ((dats m 0 c).arrAt 4 cfg0.N : S8192x21.Idx → EReal) = A) :
    Pipeline.withArrays (cfgs 0).spec c (V0 m c) (fun w => (dats m 0 c).arrAt w (cfgs 0).N) (Proc.devRef .tc main_v11) = A :=
  (Pipeline.withArrays_arr spec0 launch0.win.arr_inj c _ _ 4).trans hA

/-- The masked field: an input of the region, so still what the lines before the region left. -/
theorem tail_v4 (c : Dev nD) :
    Pipeline.withArrays (cfgs 0).spec c (V0 m c) (fun w => (dats m 0 c).arrAt w (cfgs 0).N) (Proc.devRef .tc main_v4)
      = fun i => hm (aH m c) (aMi m c) (i 0) (i 1) :=
  (Pipeline.withArrays_arr spec0 launch0.win.arr_inj c _ _ 3).trans
    (((dats m 0 c).arrAt_in 3 rfl cfg0.N).trans ((A_eq m c 3).trans (V_h0 m c)))

/-- The states: no array of the region, so what the lines before the region left. -/
theorem tail_v0 (c : Dev nD) :
    Pipeline.withArrays (cfgs 0).spec c (V0 m c) (fun w => (dats m 0 c).arrAt w (cfgs 0).N) (Proc.devRef .tc main_v0)
      = fun i => aS m c (ix2 0 (i 0)) :=
  (Pipeline.withArrays_of_ne _ c (V0 m c) _ main_v0 (by exact (by decide : ∀ w, Pipeline.arrRef spec0 w ≠ main_v0))).trans (V_S0 m c)

/-! ## The two results -/

set_option maxHeartbeats 2000000 in
/-- The second result: the region's array `A` with a leading unit axis. -/
theorem tail_Ui (c : Dev nD) (A : S8192x21.Idx → EReal) (hA : ((dats m 0 c).arrAt 4 cfg0.N : S8192x21.Idx → EReal) = A) :
    (Pipeline.afterTail₀ cfgs (dats m) 0 (V0 m) [hostOps1, hostOps1_1, hostOps1_2, hostOps1_3, hostOps1_4] c main_v24 : S1x8192x21.Idx → EReal)
      = fun i => A (ix2 (i 1) (i 2)) := by
  unfold Pipeline.afterTail₀
  simp only [hostOps1, hostOps1_1, hostOps1_2, hostOps1_3, hostOps1_4, List.flatten_cons, List.flatten_nil, List.append_nil,
    List.cons_append, List.nil_append]
  after_results_simp
  -- the last line broadcasts the buffer of the region's result, which no line after the region writes
  rw [tail_v11 m c A hA]
  funext i
  refine (broadcastInDim_apply _ _ _ i (ix2 (i 1) (i 2)) ?_).trans rfl
  intro a
  match a with
  | ⟨0, _⟩ => rfl
  | ⟨1, _⟩ => rfl

set_option maxHeartbeats 4000000 in
/-- The first result, for states in range. -/
theorem tail_U (c : Dev nD) (A : S8192x21.Idx → EReal) (hA : ((dats m 0 c).arrAt 4 cfg0.N : S8192x21.Idx → EReal) = A)
    (hS : InRange 21 (aS m c)) :
    (Pipeline.afterTail₀ cfgs (dats m) 0 (V0 m) [hostOps1, hostOps1_1, hostOps1_2, hostOps1_3, hostOps1_4] c main_v23 : S1.Idx → EReal)
      = fun _ => ∑ n : Fin 8192, (A (ix2 n (col (aS m c (ix2 0 n))))
          - half * (A (ix2 n (col (aS m c (ix2 0 n)))) - hm (aH m c) (aMi m c) n (col (aS m c (ix2 0 n))))) := by
  unfold Pipeline.afterTail₀
  simp only [hostOps1, hostOps1_1, hostOps1_2, hostOps1_3, hostOps1_4, List.flatten_cons, List.flatten_nil, List.append_nil,
    List.cons_append, List.nil_append]
  after_results_simp
  -- the three buffers the lines read: the region's result, the masked field, the states
  rw [tail_v11 m c A hA, tail_v4 m c, tail_v0 m c]
  simp only [StableHlo.TRef.ofBuf, StableHlo.TRef.toBuf, cast_eq]
  -- the lines, as the two takes, their difference halved and taken away, and the sum
  show broadcastInDim S1 ![] Facts₀.bcast_S_S1
      (Host.reduceAdd
        (subf (fillTake A fun i => aS m c (ix2 0 (i 0)))
          (mulf (broadcastInDim S8192 ![] Facts₀.bcast_S_S8192 (constant (F := Ideal) S_ .f32 0x3F000000#32))
            (subf (fillTake A fun i => aS m c (ix2 0 (i 0)))
              (fillTake (fun i => hm (aH m c) (aMi m c) (i 0) (i 1)) fun i => aS m c (ix2 0 (i 0))))))
        (constant (F := Ideal) S_ .f32 0x00000000#32) Facts₀.reducesTo_S8192_S_d0 Facts₀.h_S_) = _
  funext j
  refine (broadcastInDim_scalar_apply _ _ j).trans ?_
  refine (hostReduceAdd_apply _ _ _ _ ix0).trans ?_
  refine (Ideal.hostReduceAdd_total _ (fun b => b.elim0) _ _ _).trans ?_
  show Ideal.ofBits .f32 0x00000000#32 + _ = _
  rw [Ideal.ofBits_zero_f32, zero_add]
  -- the sum over the indices of a vector is the sum over its one coordinate
  refine Fintype.sum_equiv ⟨fun i => i 0, ix1, fun i => (eq_ix1 i).symm, fun _ => rfl⟩ _ _ ?_
  intro i
  obtain ⟨n, rfl⟩ : ∃ n : Fin 8192, i = ix1 n := ⟨i 0, eq_ix1 i⟩
  have h0 := (hS (ix2 0 n)).1
  have h1 := (hS (ix2 0 n)).2
  show fillTake A (fun i => aS m c (ix2 0 (i 0))) (ix1 n)
      - broadcastInDim S8192 ![] Facts₀.bcast_S_S8192 (constant (F := Ideal) S_ .f32 0x3F000000#32) (ix1 n)
        * (fillTake A (fun i => aS m c (ix2 0 (i 0))) (ix1 n)
          - fillTake (fun i => hm (aH m c) (aMi m c) (i 0) (i 1)) (fun i => aS m c (ix2 0 (i 0))) (ix1 n)) = _
  rw [fillTake_apply A _ n h0 h1, fillTake_apply _ _ n h0 h1, broadcastInDim_scalar_apply]
  rfl

end Cert.KernelIdeal.Potts

end
-- ==== Proof.KValue.lean ====
/-
  The kernel program's run, at the specification: every weakly fair execution ends with the first result at the total energy and
  the second at the energy rows, the arguments unchanged. The region leaves the energy rows `Ui`; the host lines after it
  take, site by site, `Ui n s − ½ · (Ui n s − hm n s)` at the site's own state `s`; and since the masked field entry `hm n s` is a
  real number, `Ui n s − hm n s = (hm n s + Ji n s) − hm n s = Ji n s`.
-/
import proofs.«426380_j2448131358775_1_alg».proof.Proof.KBlocks
import proofs.«426380_j2448131358775_1_alg».proof.Proof.KTail

noncomputable section

namespace Cert.KernelIdeal.Potts

open Cert.KernelIdeal Cert.KernelIdeal.Gen Cert.KernelIdeal.GenP Cert.Potts Idealize.ShloMosaic Idealize.ShloMosaic.TcCoe
  Idealize.ShloMosaic.ValueIdx Idealize.SL.Sem

/-- A product of two real entries is a real number. -/
theorem hm_real {h : ShH.Idx → EReal} {mi : ShS.Idx → EReal} (hh : IsFinite h) (hmi : IsFinite mi) (n : Fin 8192) (c : Fin 21) :
    ∃ r : ℝ, hm h mi n c = (r : EReal) := by
  obtain ⟨a, ha⟩ := hh (ix3 0 n c)
  obtain ⟨b, hb⟩ := hmi (ix2 0 n)
  exact ⟨a * b, by unfold hm; rw [ha, hb, EReal.coe_mul]⟩

/-- The tail's sum, with the region's array at `Ui`, is the total energy. -/
theorem tail_sum_eq (S : ShS.Idx → BitVec 32) (h : ShH.Idx → EReal) (J : ShJ.Idx → EReal) (E : ShE.Idx → BitVec 32)
    (mi : ShS.Idx → EReal) (mij : ShE.Idx → EReal) (hh : IsFinite h) (hmi : IsFinite mi) :
    (∑ n : Fin 8192, (Ui S h J E mi mij n (col (S (ix2 0 n)))
        - half * (Ui S h J E mi mij n (col (S (ix2 0 n))) - hm h mi n (col (S (ix2 0 n))))))
      = Utot S h J E mi mij := by
  unfold Utot
  refine Finset.sum_congr rfl fun n _ => ?_
  obtain ⟨r, hr⟩ := hm_real hh hmi n (col (S (ix2 0 n)))
  have e : Ui S h J E mi mij n (col (S (ix2 0 n))) - hm h mi n (col (S (ix2 0 n))) = Ji S J E mij n (col (S (ix2 0 n))) := by
    unfold Ui; rw [hr]; exact add_sub_cancel_real r _
  rw [e]

variable (m : (ℓ : Loc nD τ sig) → Buf (Elt Ideal) ℓ) (ρ : Dev nD → PrngReg)

theorem kernel_run (hS : ∀ c, InRange 21 (aS m c)) (hE : ∀ c, InRange 8192 (aE m c))
    (hh : ∀ c, IsFinite (aH m c)) (hmi : ∀ c, IsFinite (aMi m c)) :
    θ_run defs (onTc (τ := τ) (main (F := Ideal))) ⟨m, fun _ => 0, ρ⟩ (fun r => ∀ c : Dev nD,
      r.2.mem ((c.tc : Thread nD τ).loc main_v23) = specU (aS m c) (aH m c) (aJ m c) (aE m c) (aMi m c) (aMij m c)
      ∧ r.2.mem ((c.tc : Thread nD τ).loc main_v24) = specUi (aS m c) (aH m c) (aJ m c) (aE m c) (aMi m c) (aMij m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun _ hr c => ⟨?_, ?_,
      (((hr c).2 main_arg0 (Pipeline.mem_restRefs_of main_arg0 (by decide) (by decide))).trans (W_main_arg0 m (dats m) c)),
      (((hr c).2 main_arg1 (Pipeline.mem_restRefs_of main_arg1 (by decide) (by decide))).trans (W_main_arg1 m (dats m) c)),
      (((hr c).2 main_arg2 (Pipeline.mem_restRefs_of main_arg2 (by decide) (by decide))).trans (W_main_arg2 m (dats m) c)),
      (((hr c).2 main_arg3 (Pipeline.mem_restRefs_of main_arg3 (by decide) (by decide))).trans (W_main_arg3 m (dats m) c)),
      (((hr c).2 main_arg4 (Pipeline.mem_restRefs_of main_arg4 (by decide) (by decide))).trans (W_main_arg4 m (dats m) c)),
      (((hr c).2 main_arg5 (Pipeline.mem_restRefs_of main_arg5 (by decide) (by decide))).trans (W_main_arg5 m (dats m) c))⟩)
    (run_main m ρ)
  · refine ((hr c).2 main_v23 (Pipeline.mem_restRefs_of main_v23 (by decide) (by decide))).trans ?_
    refine (tail_U m c _ (final_Ui m c (hS c) (hE c)) (hS c)).trans ?_
    funext _
    exact tail_sum_eq _ _ _ _ _ _ (hh c) (hmi c)
  · refine ((hr c).2 main_v24 (Pipeline.mem_restRefs_of main_v24 (by decide) (by decide))).trans ?_
    exact tail_Ui m c _ (final_Ui m c (hS c) (hE c))

end Cert.KernelIdeal.Potts

end
-- ==== Proof.RefJi.lean ====
/-
  The reference's coupling rows and energy rows, read index by index: with every state and every neighbour position in
  range the two fill-mode gathers read the entries they name, so the sum over the neighbour axis is `Ji` and the field
  plus it is `Ui`.
-/
import proofs.«426380_j2448131358775_1_alg».proof.Proof.RefReadP
import proofs.«426380_j2448131358775_1_alg».proof.Proof.Spec
import proofs.«426380_j2448131358775_1_alg».proof.Proof.Words
import proofs.«426380_j2448131358775_1_alg».proof.Proof.GatherReads
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.Potts

open Cert.ReferenceIdeal Cert.ReferenceIdeal.ReadP Cert.Potts Idealize.ShloMosaic Idealize.ShloMosaic.ValueIdx

variable (S : ShS.Idx → BitVec 32) (h : ShH.Idx → EReal) (J : ShJ.Idx → EReal) (E : ShE.Idx → BitVec 32)
  (mi : ShS.Idx → EReal) (mij : ShE.Idx → EReal)

/-! ## A reduce by `and` whose every operand is 1 -/

/-- A left fold by `and` from 1 over words that are all 1 is 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a (List.mem_cons_self ..)]
    exact foldl_andi_all_one f l (fun n hn => hl n (List.mem_cons_of_mem _ hn))

/-- A host reduce by `and`, from the constant 1, of an array whose every entry is 1, is 1 everywhere. -/
theorem reduce_andi_all_one {s t u : Shape} {axes : List (Fin s.rank)} (x : s.Idx → BitVec 1) (init : u.Idx → BitVec 1)
    (hr : s.ReducesTo axes t) (hu : 0 < u.numel) (hinit : ∀ a, init a = 1#1) (hx : ∀ i, x i = 1#1) (j : t.Idx) :
    Host.reduce IntOp.andi x init hr hu j = 1#1 := by
  rw [Host.reduce_eq_foldl, hinit]
  exact foldl_andi_all_one x _ (fun n _ => hx n)

/-! ## The first take: the neighbours' state words

  The position words are laid flat, `(n, k)` at place `32 n + k`. A position word in range is not negative, so the
  wrap-around of negative positions leaves it alone; it passes both bounds tests, so the validity bit is 1 at every
  place and the fill value is never chosen; and the gather reads the state array at the position the word names. -/

/-- The normalised position word at flat place `q` is the position word itself. -/
theorem call0_v5_at (hE : InRange 8192 E) (q : Fin 262144) (a : Fin 1) :
    val_main_call0_v5 (F := Ideal) E (ix2 q a) = E (idx_main_v6 (ix2 0 q)) := by
  have hq := q.isLt
  have ha := a.isLt
  have e : idx_main_call0_v5 (ix2 q a) = ix2 0 q :=
    funext fun d => Fin.ext (by
      match d with
      | ⟨0, _⟩ => rfl
      | ⟨1, _⟩ => show (q.val * 1 + a.val) % 262144 = q.val; omega)
  rw [val_main_call0_v5_apply, e, val_main_call0_v4_apply, val_main_call0_v1_apply, val_main_call0_v3_apply,
    val_main_call0_v0_apply, val_main_call0_v2_apply, val_main_call0_c_apply, val_main_call0_c_0_apply, val_main_v6_apply]
  exact select_norm_of_nonneg _ _ (hE _).1

/-- Both bounds tests pass at every place. -/
theorem call0_v11_one (hE : InRange 8192 E) (i : S262144x1.Idx) : val_main_call0_v11 (F := Ideal) E i = 1#1 := by
  obtain ⟨q, a, rfl⟩ : ∃ (q : Fin 262144) (a : Fin 1), i = ix2 q a := ⟨i 0, i 1, eq_ix2 i⟩
  rw [val_main_call0_v11_apply, val_main_call0_v7_apply, val_main_call0_v10_apply, call0_v5_at E hE q a,
    val_main_call0_v6_apply, val_main_call0_c_2_apply, val_main_call0_v9_apply, val_main_call0_v8_apply,
    val_main_call0_c_1_apply]
  exact valid_of_inRange _ 8192 (by decide) (by decide) (hE _).1 (hE _).2

/-- The validity bit is 1 at every place. -/
theorem call0_v14_one (hE : InRange 8192 E) (i : S1x262144.Idx) : val_main_call0_v14 (F := Ideal) E i = 1#1 := by
  rw [val_main_call0_v14_apply]
  unfold val_main_call0_v12
  exact reduce_andi_all_one _ _ _ _ (fun _ => rfl) (call0_v11_one E hE) _

/-- The neighbours' state words, as the reference gathers them. -/
theorem ref_nbWord (hE : InRange 8192 E) :
    (val_main_v8 (F := Ideal) S E : S1x8192x32.Idx → BitVec 32) = fun i => nbWord S E (i 1) (i 2) := by
  funext i
  obtain ⟨a, n, k, rfl⟩ : ∃ (a : Fin 1) (n : Fin 8192) (k : Fin 32), i = ix3 a n k := ⟨i 0, i 1, i 2, eq_ix3 i⟩
  obtain rfl : a = 0 := Subsingleton.elim _ _
  have hn := n.isLt
  have hk := k.isLt
  have e8 : idx_main_v8 (ix3 (0 : Fin 1) n k) = ix2 0 (⟨32 * n.val + k.val, by omega⟩ : Fin 262144) :=
    funext fun d => Fin.ext (by
      match d with
      | ⟨0, _⟩ => rfl
      | ⟨1, _⟩ => show ((0 * 8192 + n.val) * 32 + k.val) % 262144 = 32 * n.val + k.val; omega)
  have e6 : idx_main_v6 (ix2 (0 : Fin 1) (⟨32 * n.val + k.val, by omega⟩ : Fin 262144)) = ix3 0 n k :=
    funext fun d => Fin.ext (by
      match d with
      | ⟨0, _⟩ => rfl
      | ⟨1, _⟩ => show (0 * 262144 + (32 * n.val + k.val)) / 32 % 8192 = n.val; omega
      | ⟨2, _⟩ => show (0 * 262144 + (32 * n.val + k.val)) % 32 = k.val; omega)
  rw [val_main_v8_apply, e8, val_main_v7_apply, call0_v14_one E hE, select_one]
  unfold val_main_call0_v13
  rw [ref_take_S, call0_v5_at E hE, e6]
  rfl

/-! ## The second take: the coupling entries

  The neighbour's state word, broadcast along the row axis, is the index into the last axis of the weighted coupling
  array. A state word in range is again left alone by the wrap-around and passes both bounds tests, so the gather's
  entry is kept everywhere: row `c` of neighbour `k`'s weighted matrix at the column the neighbour's state names. -/

/-- The index word at `(0, n, k, c, 0)` is the state word of neighbour `k` of site `n`. -/
theorem v10_at (hE : InRange 8192 E) (i : S1x8192x32x21x1.Idx) :
    val_main_v10 (F := Ideal) S E i = nbWord S E (i 1) (i 2) := by
  rw [val_main_v10_apply, val_main_v9_apply, ref_nbWord S E hE]
  rfl

/-- The normalised index word is the neighbour's state word. -/
theorem call1_v5_at (hS : InRange 21 S) (hE : InRange 8192 E) (i : S8192x32x21x1x1.Idx) :
    val_main_call1_v5 (F := Ideal) S E i = nbWord S E ((idx_main_call1_v5 i) 1) ((idx_main_call1_v5 i) 2) := by
  rw [val_main_call1_v5_apply, val_main_call1_v4_apply, val_main_call1_v1_apply, val_main_call1_v3_apply,
    val_main_call1_v0_apply, val_main_call1_v2_apply, val_main_call1_c_apply, val_main_call1_c_0_apply, v10_at S E hE]
  exact select_norm_of_nonneg _ _ (hS _).1

/-- Both bounds tests pass at every place. -/
theorem call1_v11_one (hS : InRange 21 S) (hE : InRange 8192 E) (i : S8192x32x21x1x1.Idx) :
    val_main_call1_v11 (F := Ideal) S E i = 1#1 := by
  rw [val_main_call1_v11_apply, val_main_call1_v7_apply, val_main_call1_v10_apply, call1_v5_at S E hS hE,
    val_main_call1_v6_apply, val_main_call1_c_2_apply, val_main_call1_v9_apply, val_main_call1_v8_apply,
    val_main_call1_c_1_apply]
  exact valid_of_inRange _ 21 (by decide) (by decide) (hS _).1 (hS _).2

/-- The validity bit is 1 at every place. -/
theorem call1_v14_one (hS : InRange 21 S) (hE : InRange 8192 E) (i : S1x8192x32x21x1.Idx) :
    val_main_call1_v14 (F := Ideal) S E i = 1#1 := by
  rw [val_main_call1_v14_apply]
  unfold val_main_call1_v12
  exact reduce_andi_all_one _ _ _ _ (fun _ => rfl) (call1_v11_one S E hS hE) _

/-- The weighted coupling array at an index: the coupling entry times the neighbour's weight. -/
theorem v5_at (n : Fin 8192) (k : Fin 32) (c d : Fin 21) :
    val_main_v5 (F := Ideal) J mij (ix5 0 n k c d) = J (ix5 0 n k c d) * mij (ix3 0 n k) := by
  have e : idx_main_v3 (idx_main_v4 (ix5 (0 : Fin 1) n k c d)) = ix3 0 n k :=
    funext fun a => Fin.ext (by match a with | ⟨0, _⟩ => rfl | ⟨1, _⟩ => rfl | ⟨2, _⟩ => rfl)
  rw [val_main_v5_apply, val_main_v4_apply, val_main_v3_apply, e]
  rfl

/-- The gathered entry at `(0, n, k, c)`. -/
theorem v12_at (hS : InRange 21 S) (hE : InRange 8192 E) (n : Fin 8192) (k : Fin 32) (c : Fin 21) :
    val_main_v12 (F := Ideal) S J E mij (ix4 0 n k c) = J (ix5 0 n k c (col (nbWord S E n k))) * mij (ix3 0 n k) := by
  have hn := n.isLt
  have hk := k.isLt
  have hc := c.isLt
  have e12 : idx_main_v12 (ix4 (0 : Fin 1) n k c) = ix5 0 n k c 0 :=
    funext fun d => Fin.ext (by
      match d with
      | ⟨0, _⟩ => rfl
      | ⟨1, _⟩ => show (((0 * 8192 + n.val) * 32 + k.val) * 21 + c.val) / 672 % 8192 = n.val; omega
      | ⟨2, _⟩ => show (((0 * 8192 + n.val) * 32 + k.val) * 21 + c.val) / 21 % 32 = k.val; omega
      | ⟨3, _⟩ => show (((0 * 8192 + n.val) * 32 + k.val) * 21 + c.val) / 1 % 21 = c.val; omega
      | ⟨4, _⟩ => rfl)
  have e5 : idx_main_call1_v5 (ix5 n k c (0 : Fin 1) (0 : Fin 1)) = ix5 0 n k c 0 :=
    funext fun d => Fin.ext (by
      match d with
      | ⟨0, _⟩ => rfl
      | ⟨1, _⟩ => show ((((n.val * 32 + k.val) * 21 + c.val) * 1 + 0) * 1 + 0) / 672 % 8192 = n.val; omega
      | ⟨2, _⟩ => show ((((n.val * 32 + k.val) * 21 + c.val) * 1 + 0) * 1 + 0) / 21 % 32 = k.val; omega
      | ⟨3, _⟩ => show ((((n.val * 32 + k.val) * 21 + c.val) * 1 + 0) * 1 + 0) / 1 % 21 = c.val; omega
      | ⟨4, _⟩ => rfl)
  rw [val_main_v12_apply, e12, val_main_v11_apply, call1_v14_one S E hS hE, select_one]
  unfold val_main_call1_v13
  rw [ref_take_J, call1_v5_at S E hS hE, e5, v5_at]
  rfl

/-- The coupling rows. -/
theorem ref_Ji (hS : InRange 21 S) (hE : InRange 8192 E) :
    (val_main_v13 (F := Ideal) S J E mij : S1x8192x21.Idx → EReal) = fun i => Ji S J E mij (i 1) (i 2) := by
  funext i
  obtain ⟨a, n, c, rfl⟩ : ∃ (a : Fin 1) (n : Fin 8192) (c : Fin 21), i = ix3 a n c := ⟨i 0, i 1, i 2, eq_ix3 i⟩
  obtain rfl : a = 0 := Subsingleton.elim _ _
  have e13 : ∀ k : Fin 32, idx_main_v13 (ix3 (0 : Fin 1) n c) k = ix4 0 n k c := fun k =>
    funext fun d => Fin.ext (by match d with | ⟨0, _⟩ => rfl | ⟨1, _⟩ => rfl | ⟨2, _⟩ => rfl | ⟨3, _⟩ => rfl)
  rw [val_main_v13_apply, val_main_cst_apply]
  simp only [e13, v12_at S J E mij hS hE]
  show Ideal.ofBits .f32 0x00000000#32 + _ = _
  rw [Ideal.ofBits_zero_f32, zero_add]
  rfl

/-- The masked field. -/
theorem ref_hm : (val_main_v2 (F := Ideal) h mi : S1x8192x21.Idx → EReal) = fun i => hm h mi (i 1) (i 2) := by
  funext i
  obtain ⟨a, n, c, rfl⟩ : ∃ (a : Fin 1) (n : Fin 8192) (c : Fin 21), i = ix3 a n c := ⟨i 0, i 1, i 2, eq_ix3 i⟩
  obtain rfl : a = 0 := Subsingleton.elim _ _
  have e : idx_main_v0 (idx_main_v1 (ix3 (0 : Fin 1) n c)) = ix2 0 n :=
    funext fun a => Fin.ext (by match a with | ⟨0, _⟩ => rfl | ⟨1, _⟩ => rfl)
  rw [val_main_v2_apply, val_main_v1_apply, val_main_v0_apply, e]
  rfl

/-- The energy rows: the reference's second result. -/
theorem ref_Ui (hS : InRange 21 S) (hE : InRange 8192 E) :
    (val_main_v14 (F := Ideal) S h J E mi mij : S1x8192x21.Idx → EReal) = specUi S h J E mi mij := by
  funext i
  rw [val_main_v14_apply, ref_hm h mi, ref_Ji S J E mij hS hE]
  rfl

end Cert.ReferenceIdeal.Potts

end
-- ==== Proof.RefU.lean ====
/-
  The reference's total energy: with every state in range the two own-state gathers read `Ui n (S n)` and `Ji n (S n)`, and
  the sum over the sites of the first less half the second is `Utot`.

  Each gather is jnp's fill-mode indexing along the last axis of 21 entries: a negative index is shifted by 21, the shifted
  index is tested against `[0, 20]`, the test is and-reduced over an axis of one element, the operand is gathered at the
  index, and the result is the gathered entry where the test holds and a fill value elsewhere. A state in `[0, 21)` is not
  shifted and passes the test, so at every site the gathered entry is kept and the fill value is never read.
-/
import proofs.«426380_j2448131358775_1_alg».proof.Proof.RefJi
import Idealize.ShloMosaic.PureOps.Reduce

noncomputable section

namespace Cert.ReferenceIdeal.Potts

open Cert.ReferenceIdeal Cert.ReferenceIdeal.ReadP Cert.Potts Idealize.ShloMosaic Idealize.ShloMosaic.ValueIdx

variable (S : ShS.Idx → BitVec 32) (h : ShH.Idx → EReal) (J : ShJ.Idx → EReal) (E : ShE.Idx → BitVec 32)
  (mi : ShS.Idx → EReal) (mij : ShE.Idx → EReal)

/-! ## A reduction over an axis of one element -/

/-- A fold over the one-element index set combines the one value with the initial value. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

/-- An and-reduce over the last axis of an [8192, 1, 1] array of bits, from a true initial bit: row `n` of the result is
    the one bit of that row, so it is true when that bit is. -/
theorem reduceAnd_row (x : S8192x1x1.Idx → BitVec 1) (init : S_.Idx → BitVec 1)
    (h' : S8192x1x1.ReducesTo [2] S8192x1) (hu : 0 < S_.numel) (n : Fin 8192)
    (hinit : ∀ i, init i = 1#1) (hx : x (ix3 n 0 0) = 1#1) :
    Host.reduce IntOp.andi x init h' hu (ix2 n 0) = 1#1 := by
  rw [Host.reduce_eq_fold_single IntOp.andi x init h' (by decide) hu]
  refine (fold_fin_one IntOp.andi _ _).trans ?_
  have e : (x ∘ Shape.Reduces.lift (s := S8192x1x1) (t := S8192x1) (a := 2) (by decide) (ix2 n 0)) (0 : Fin 1) = x (ix3 n 0 0) :=
    congrArg x (funext fun a => Fin.ext (by match a with | ⟨0, _⟩ => rfl | ⟨1, _⟩ => rfl | ⟨2, _⟩ => rfl))
  rw [hinit]
  refine (congrArg (fun b => IntOp.andi b 1#1) (e.trans hx)).trans ?_
  rfl

/-! ## The own-state gather of the energy rows -/

/-- The states as a [1, 8192, 1] column. -/
theorem v15_at (n : Fin 8192) : val_main_v15 (F := Ideal) S (ix3 0 n 0) = S (ix2 0 n) := by
  rw [val_main_v15_apply]
  exact congrArg S (funext fun a => Fin.ext (by match a with | ⟨0, _⟩ => rfl | ⟨1, _⟩ => rfl))

/-- The negative-index shift leaves a state in range alone. -/
theorem call2_v4_at (hS : InRange 21 S) (n : Fin 8192) : val_main_call2_v4 (F := Ideal) S (ix3 0 n 0) = S (ix2 0 n) := by
  rw [val_main_call2_v4_apply, val_main_call2_v1_apply, val_main_call2_v3_apply, val_main_call2_v0_apply,
    val_main_call2_c_apply, val_main_call2_v2_apply, val_main_call2_c_0_apply, v15_at]
  exact select_norm_of_nonneg _ _ (hS _).1

/-- The start indices, as an [8192, 1, 1] array, are the states. -/
theorem call2_v5_at (hS : InRange 21 S) (n : Fin 8192) : val_main_call2_v5 (F := Ideal) S (ix3 n 0 0) = S (ix2 0 n) := by
  rw [val_main_call2_v5_apply]
  have e : idx_main_call2_v5 (ix3 n 0 0) = ix3 0 n 0 :=
    funext fun a => Fin.ext (by
      match a with
      | ⟨0, _⟩ => rfl
      | ⟨1, _⟩ => show ((n.val * 1 + 0) * 1 + 0) / 1 % 8192 = n.val; have := n.isLt; omega
      | ⟨2, _⟩ => rfl)
  rw [e, call2_v4_at S hS]

/-- The bounds test passes at every site. -/
theorem call2_v11_at (hS : InRange 21 S) (n : Fin 8192) : val_main_call2_v11 (F := Ideal) S (ix3 n 0 0) = 1#1 := by
  rw [val_main_call2_v11_apply, val_main_call2_v7_apply, val_main_call2_v10_apply, val_main_call2_v6_apply,
    val_main_call2_c_2_apply, val_main_call2_v9_apply, val_main_call2_v8_apply, val_main_call2_c_1_apply, call2_v5_at S hS]
  exact valid_of_inRange _ 21 (by decide) (by decide) (hS _).1 (hS _).2

theorem call2_v12_at (hS : InRange 21 S) (n : Fin 8192) : val_main_call2_v12 (F := Ideal) S (ix2 n 0) = 1#1 := by
  unfold val_main_call2_v12
  exact reduceAnd_row _ _ _ _ n (fun _ => rfl) (call2_v11_at S hS n)

theorem call2_v14_at (hS : InRange 21 S) (n : Fin 8192) : val_main_call2_v14 (F := Ideal) S (ix3 0 n 0) = 1#1 := by
  rw [val_main_call2_v14_apply]
  have e : idx_main_call2_v14 (ix3 0 n 0) = ix2 n 0 :=
    funext fun a => Fin.ext (by match a with | ⟨0, _⟩ => rfl | ⟨1, _⟩ => rfl)
  rw [e, call2_v12_at S hS]

/-- The gathered energy: site `n`'s row at its own state's column. -/
theorem v16_at (hS : InRange 21 S) (hE : InRange 8192 E) (n : Fin 8192) :
    val_main_v16 (F := Ideal) S h J E mi mij (ix3 0 n 0) = Ui S h J E mi mij n (col (S (ix2 0 n))) := by
  rw [val_main_v16_apply, call2_v14_at S hS, select_one]
  unfold val_main_call2_v13
  rw [ref_take_row, call2_v5_at S hS, ref_Ui S h J E mi mij hS hE]
  rfl

theorem v17_at (hS : InRange 21 S) (hE : InRange 8192 E) (n : Fin 8192) :
    val_main_v17 (F := Ideal) S h J E mi mij (ix2 0 n) = Ui S h J E mi mij n (col (S (ix2 0 n))) := by
  rw [val_main_v17_apply]
  have e : idx_main_v17 (ix2 0 n) = ix3 0 n 0 :=
    funext fun a => Fin.ext (by
      match a with
      | ⟨0, _⟩ => rfl
      | ⟨1, _⟩ => show (0 * 8192 + n.val) / 1 % 8192 = n.val; have := n.isLt; omega
      | ⟨2, _⟩ => rfl)
  rw [e, v16_at S h J E mi mij hS hE]

/-! ## The own-state gather of the coupling rows: the same steps -/

theorem v18_at (n : Fin 8192) : val_main_v18 (F := Ideal) S (ix3 0 n 0) = S (ix2 0 n) := by
  rw [val_main_v18_apply]
  exact congrArg S (funext fun a => Fin.ext (by match a with | ⟨0, _⟩ => rfl | ⟨1, _⟩ => rfl))

theorem call3_v4_at (hS : InRange 21 S) (n : Fin 8192) : val_main_call3_v4 (F := Ideal) S (ix3 0 n 0) = S (ix2 0 n) := by
  rw [val_main_call3_v4_apply, val_main_call3_v1_apply, val_main_call3_v3_apply, val_main_call3_v0_apply,
    val_main_call3_c_apply, val_main_call3_v2_apply, val_main_call3_c_0_apply, v18_at]
  exact select_norm_of_nonneg _ _ (hS _).1

theorem call3_v5_at (hS : InRange 21 S) (n : Fin 8192) : val_main_call3_v5 (F := Ideal) S (ix3 n 0 0) = S (ix2 0 n) := by
  rw [val_main_call3_v5_apply]
  have e : idx_main_call3_v5 (ix3 n 0 0) = ix3 0 n 0 :=
    funext fun a => Fin.ext (by
      match a with
      | ⟨0, _⟩ => rfl
      | ⟨1, _⟩ => show ((n.val * 1 + 0) * 1 + 0) / 1 % 8192 = n.val; have := n.isLt; omega
      | ⟨2, _⟩ => rfl)
  rw [e, call3_v4_at S hS]

theorem call3_v11_at (hS : InRange 21 S) (n : Fin 8192) : val_main_call3_v11 (F := Ideal) S (ix3 n 0 0) = 1#1 := by
  rw [val_main_call3_v11_apply, val_main_call3_v7_apply, val_main_call3_v10_apply, val_main_call3_v6_apply,
    val_main_call3_c_2_apply, val_main_call3_v9_apply, val_main_call3_v8_apply, val_main_call3_c_1_apply, call3_v5_at S hS]
  exact valid_of_inRange _ 21 (by decide) (by decide) (hS _).1 (hS _).2

theorem call3_v12_at (hS : InRange 21 S) (n : Fin 8192) : val_main_call3_v12 (F := Ideal) S (ix2 n 0) = 1#1 := by
  unfold val_main_call3_v12
  exact reduceAnd_row _ _ _ _ n (fun _ => rfl) (call3_v11_at S hS n)

theorem call3_v14_at (hS : InRange 21 S) (n : Fin 8192) : val_main_call3_v14 (F := Ideal) S (ix3 0 n 0) = 1#1 := by
  rw [val_main_call3_v14_apply]
  have e : idx_main_call3_v14 (ix3 0 n 0) = ix2 n 0 :=
    funext fun a => Fin.ext (by match a with | ⟨0, _⟩ => rfl | ⟨1, _⟩ => rfl)
  rw [e, call3_v12_at S hS]

/-- The gathered coupling: site `n`'s coupling row at its own state's column. -/
theorem v19_at (hS : InRange 21 S) (hE : InRange 8192 E) (n : Fin 8192) :
    val_main_v19 (F := Ideal) S J E mij (ix3 0 n 0) = Ji S J E mij n (col (S (ix2 0 n))) := by
  rw [val_main_v19_apply, call3_v14_at S hS, select_one]
  unfold val_main_call3_v13
  rw [ref_take_row, call3_v5_at S hS, ref_Ji S J E mij hS hE]
  rfl

theorem v20_at (hS : InRange 21 S) (hE : InRange 8192 E) (n : Fin 8192) :
    val_main_v20 (F := Ideal) S J E mij (ix2 0 n) = Ji S J E mij n (col (S (ix2 0 n))) := by
  rw [val_main_v20_apply]
  have e : idx_main_v20 (ix2 0 n) = ix3 0 n 0 :=
    funext fun a => Fin.ext (by
      match a with
      | ⟨0, _⟩ => rfl
      | ⟨1, _⟩ => show (0 * 8192 + n.val) / 1 % 8192 = n.val; have := n.isLt; omega
      | ⟨2, _⟩ => rfl)
  rw [e, v19_at S J E mij hS hE]

/-! ## The sum over the sites -/

/-- One site's term: its own-state energy less half its own-state coupling. -/
theorem v23_at (hS : InRange 21 S) (hE : InRange 8192 E) (n : Fin 8192) :
    val_main_v23 (F := Ideal) S h J E mi mij (ix2 0 n)
      = Ui S h J E mi mij n (col (S (ix2 0 n))) - half * Ji S J E mij n (col (S (ix2 0 n))) := by
  rw [val_main_v23_apply, val_main_v22_apply, val_main_v21_apply, val_main_cst_0_apply,
    v17_at S h J E mi mij hS hE, v20_at S J E mij hS hE]
  rfl

/-- The total energy: the reference's first result. -/
theorem ref_U (hS : InRange 21 S) (hE : InRange 8192 E) :
    (val_main_v24 (F := Ideal) S h J E mi mij : S1.Idx → EReal) = specU S h J E mi mij := by
  funext i
  rw [val_main_v24_apply, val_main_cst_1_apply]
  show Ideal.ofBits .f32 0x00000000#32 + _ = Utot S h J E mi mij
  rw [Ideal.ofBits_zero_f32, zero_add]
  unfold Utot
  refine Finset.sum_congr rfl fun k _ => ?_
  have e : idx_main_v24 i k = ix2 0 k :=
    funext fun a => Fin.ext (by
      match a with
      | ⟨0, _⟩ => show (i 0).val = 0; have : (i 0).val < 1 := (i 0).isLt; omega
      | ⟨1, _⟩ => rfl)
  rw [e, v23_at S h J E mi mij hS hE]

end Cert.ReferenceIdeal.Potts

end
-- ==== Proof.lean ====
/-
  Two programs compute a Potts energy on a graph of 8192 sites with 32 neighbours each and 21 states: the energy rows
  `Ui n c = h n c · mi n + Σ_k J n k c (S (E n k)) · mij n k` and the total `Σ_n (Ui n (S n) − ½ · Ji n (S n))`.

  The kernel contracts each coupling row against the one-hot row of the neighbour's state inside a pallas_call over 64 blocks of
  128 sites, and forms the total from `Ui` and the masked field afterwards; the reference gathers the coupling column directly.
  With every state in `[0, 21)` and every neighbour position in `[0, 8192)` the one-hot contraction IS the gathered column, every
  fill-mode gather reads the entry it names, and, the masked field being finite, `(hm + Ji) − hm = Ji`: both programs compute the
  specification of Proof/Spec.lean. Each frame is the program's run with the results dropped; nothing was rewritten by the
  idealization, so `preserves` is trivial.
-/
import proofs.«426380_j2448131358775_1_alg».proof.Defs
import proofs.«426380_j2448131358775_1_alg».proof.Proof.Gen.Kernel
import proofs.«426380_j2448131358775_1_alg».proof.Proof.Gen.KernelIdeal
import proofs.«426380_j2448131358775_1_alg».proof.Proof.Gen.ReferenceIdeal
import proofs.«426380_j2448131358775_1_alg».proof.Proof.Gen.Pre_finite_inputs
import proofs.«426380_j2448131358775_1_alg».proof.Proof.FrameKernel
import proofs.«426380_j2448131358775_1_alg».proof.Proof.FrameKernelIdeal
import proofs.«426380_j2448131358775_1_alg».proof.Proof.RefRunDefs
import proofs.«426380_j2448131358775_1_alg».proof.Proof.RefRunHand
import proofs.«426380_j2448131358775_1_alg».proof.Proof.RefReadP
import proofs.«426380_j2448131358775_1_alg».proof.Proof.PreFacts
import proofs.«426380_j2448131358775_1_alg».proof.Proof.KValue
import proofs.«426380_j2448131358775_1_alg».proof.Proof.RefJi
import proofs.«426380_j2448131358775_1_alg».proof.Proof.RefU
import Idealize.ShloMosaic.Adequacy
import Idealize.ShloMosaic.Init

noncomputable section

namespace Cert.Proof

open Idealize.ShloMosaic Idealize.SL.Sem Cert.Potts

theorem frame_K : Cert.frame_Kernel := fun m ρ _ => Cert.Kernel.GenP.frame m ρ

theorem frame_KI : Cert.frame_KernelIdeal := fun m ρ _ => Cert.KernelIdeal.GenP.frame m ρ

theorem frame_RI : Cert.frame_ReferenceIdeal := fun m ρ _ =>
  (θ_run Cert.ReferenceIdeal.defs _ _).mono (fun _ h c => (h c).2.2) (Cert.ReferenceIdeal.Potts.run_val (F := Ideal) m ρ)

/-- Both programs end at the specification of the argument arrays, which agree. -/
theorem algebraic : Cert.algebraic_KernelIdeal_ReferenceIdeal := by
  intro m ρ m' ρ' hpre hagree
  have hf := fun c => facts_of_pre _ _ _ _ _ _ (hpre c)
  refine ⟨_, _, Cert.KernelIdeal.Potts.kernel_run m ρ (fun c => (hf c).2.2.2.2.1) (fun c => (hf c).2.2.2.2.2)
    (fun c => (hf c).1) (fun c => (hf c).2.2.1), ?_⟩
  refine (θ_run Cert.ReferenceIdeal.defs _ _).mono (fun _ h c => ⟨?_, ?_, (h c).2.2⟩)
    (Cert.ReferenceIdeal.Potts.run_val (F := Ideal) m' ρ')
  · rw [(h c).1, (hagree c).1, (hagree c).2.1, (hagree c).2.2.1, (hagree c).2.2.2.1,
      (hagree c).2.2.2.2.1, (hagree c).2.2.2.2.2]
    exact Cert.ReferenceIdeal.Potts.ref_U _ _ _ _ _ _ (hf c).2.2.2.2.1 (hf c).2.2.2.2.2
  · rw [(h c).2.1, (hagree c).1, (hagree c).2.1, (hagree c).2.2.1, (hagree c).2.2.2.1,
      (hagree c).2.2.2.2.1, (hagree c).2.2.2.2.2]
    exact Cert.ReferenceIdeal.Potts.ref_Ui _ _ _ _ _ _ (hf c).2.2.2.2.1 (hf c).2.2.2.2.2

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
